-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x524288 : Shape := ⟨2, ![2, 524288]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x1 .f32) (main_arg9 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S131072x128 .f32) (main_arg1 : IVec S2x524288 32) (main_arg2 : FVec F S128x128 .f32) (main_arg3 : FVec F S128 .f32) (main_arg4 : FVec F S128x256 .f32) (main_arg5 : FVec F S256 .f32) (main_arg6 : FVec F S256x256 .f32) (main_arg7 : FVec F S256 .f32) (main_arg8 : FVec F S256x1 .f32) (main_arg9 : FVec F S1 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S131072x128 : Shape := ⟨2, ![131072, 128]⟩
abbrev S2x524288 : Shape := ⟨2, ![2, 524288]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S131072 : Shape := ⟨1, ![131072]⟩
abbrev S1x524288 : Shape := ⟨2, ![1, 524288]⟩
abbrev S524288 : Shape := ⟨1, ![524288]⟩
abbrev S655360 : Shape := ⟨1, ![655360]⟩
abbrev S_ : Shape := ⟨0, ![]⟩
abbrev S655360x1 : Shape := ⟨2, ![655360, 1]⟩
abbrev S4096x128 : Shape := ⟨2, ![4096, 128]⟩
abbrev S655360x128 : Shape := ⟨2, ![655360, 128]⟩
abbrev S8192x16x128 : Shape := ⟨3, ![8192, 16, 128]⟩
abbrev S1x1x128 : Shape := ⟨3, ![1, 1, 128]⟩
abbrev S1x256 : Shape := ⟨2, ![1, 256]⟩
abbrev S1x1 : Shape := ⟨2, ![1, 1]⟩
abbrev S8192x1 : Shape := ⟨2, ![8192, 1]⟩
abbrev S256x16x128 : Shape := ⟨3, ![256, 16, 128]⟩
abbrev S256x128 : Shape := ⟨2, ![256, 128]⟩
abbrev S8192 : Shape := ⟨1, ![8192]⟩

abbrev nBuf : Space → Nat
  | .hbm => 75
  | .vmem => 18
  | .smem => 0
  | _ => 0

abbrev bufTy : (tb : Table) → Fin (tcTables nBuf tb) → BufTy
  | .hbm, ⟨0, _⟩ => ⟨S131072x128, .f32⟩
  | .hbm, ⟨1, _⟩ => ⟨S2x524288, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S131072, .i32⟩
  | .hbm, ⟨11, _⟩ => ⟨S1x524288, .i32⟩
  | .hbm, ⟨12, _⟩ => ⟨S524288, .i32⟩
  | .hbm, ⟨13, _⟩ => ⟨S655360, .i32⟩
  | .hbm, ⟨14, _⟩ => ⟨S1x524288, .i32⟩
  | .hbm, ⟨15, _⟩ => ⟨S524288, .i32⟩
  | .hbm, ⟨16, _⟩ => ⟨S655360, .i32⟩
  | .hbm, ⟨17, _⟩ => ⟨S_, .f32⟩
  | .hbm, ⟨18, _⟩ => ⟨S655360, .f32⟩
  | .hbm, ⟨19, _⟩ => ⟨S_, .f32⟩
  | .hbm, ⟨20, _⟩ => ⟨S131072, .f32⟩
  | .hbm, ⟨21, _⟩ => ⟨S655360x1, .i32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .i1⟩
  | .hbm, ⟨26, _⟩ => ⟨S131072, .f32⟩
  | .hbm, ⟨27, _⟩ => ⟨S_, .f32⟩
  | .hbm, ⟨28, _⟩ => ⟨S_, .f32⟩
  | .hbm, ⟨29, _⟩ => ⟨S131072, .f32⟩
  | .hbm, ⟨30, _⟩ => ⟨S131072, .f32⟩
  | .hbm, ⟨31, _⟩ => ⟨S_, .i32⟩
  | .hbm, ⟨32, _⟩ => ⟨S655360, .i32⟩
  | .hbm, ⟨33, _⟩ => ⟨S655360, .i1⟩
  | .hbm, ⟨34, _⟩ => ⟨S_, .i32⟩
  | .hbm, ⟨35, _⟩ => ⟨S655360, .i32⟩
  | .hbm, ⟨36, _⟩ => ⟨S655360, .i32⟩
  | .hbm, ⟨37, _⟩ => ⟨S655360, .i32⟩
  | .hbm, ⟨38, _⟩ => ⟨S655360x1, .i32⟩
  | .hbm, ⟨39, _⟩ => ⟨S655360, .f32⟩
  | .hbm, ⟨40, _⟩ => ⟨S_, .i32⟩
  | .hbm, ⟨41, _⟩ => ⟨S655360, .i32⟩
  | .hbm, ⟨42, _⟩ => ⟨S655360, .i1⟩
  | .hbm, ⟨43, _⟩ => ⟨S_, .i32⟩
  | .hbm, ⟨44, _⟩ => ⟨S655360, .i32⟩
  | .hbm, ⟨45, _⟩ => ⟨S655360, .i32⟩
  | .hbm, ⟨46, _⟩ => ⟨S655360, .i32⟩
  | .hbm, ⟨47, _⟩ => ⟨S655360x1, .i32⟩
  | .hbm, ⟨48, _⟩ => ⟨S655360, .f32⟩
  | .hbm, ⟨49, _⟩ => ⟨S655360, .f32⟩
  | .hbm, ⟨50, _⟩ => ⟨S131072x128, .f32⟩
  | .hbm, ⟨51, _⟩ => ⟨S_, .i32⟩
  | .hbm, ⟨52, _⟩ => ⟨S655360, .i32⟩
  | .hbm, ⟨53, _⟩ => ⟨S655360, .i1⟩
  | .hbm, ⟨54, _⟩ => ⟨S_, .i32⟩
  | .hbm, ⟨55, _⟩ => ⟨S655360, .i32⟩
  | .hbm, ⟨56, _⟩ => ⟨S655360, .i32⟩
  | .hbm, ⟨57, _⟩ => ⟨S655360, .i32⟩
  | .hbm, ⟨58, _⟩ => ⟨S655360x1, .i32⟩
  | .hbm, ⟨59, _⟩ => ⟨S655360x128, .f32⟩
  | .hbm, ⟨60, _⟩ => ⟨S655360x1, .f32⟩
  | .hbm, ⟨61, _⟩ => ⟨S655360x128, .f32⟩
  | .hbm, ⟨62, _⟩ => ⟨S655360x128, .f32⟩
  | .hbm, ⟨63, _⟩ => ⟨S_, .f32⟩
  | .hbm, ⟨64, _⟩ => ⟨S131072x128, .f32⟩
  | .hbm, ⟨65, _⟩ => ⟨S655360x1, .i32⟩
  | .hbm, ⟨66, _⟩ => ⟨S131072x128, .f32⟩
  | .hbm, ⟨67, _⟩ => ⟨S8192x16x128, .f32⟩
  | .hbm, ⟨68, _⟩ => ⟨S8192x16x128, .f32⟩
  | .hbm, ⟨69, _⟩ => ⟨S1x1x128, .f32⟩
  | .hbm, ⟨70, _⟩ => ⟨S1x256, .f32⟩
  | .hbm, ⟨71, _⟩ => ⟨S1x256, .f32⟩
  | .hbm, ⟨72, _⟩ => ⟨S1x1, .f32⟩
  | .hbm, ⟨73, _⟩ => ⟨S8192x1, .f32⟩
  | .hbm, ⟨74, _⟩ => ⟨S8192, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S256x16x128, .f32⟩
  | .local _ .vmem, ⟨6, _⟩ => ⟨S256x16x128, .f32⟩
  | .local _ .vmem, ⟨7, _⟩ => ⟨S256x16x128, .f32⟩
  | .local _ .vmem, ⟨8, _⟩ => ⟨S256x16x128, .f32⟩
  | .local _ .vmem, ⟨9, _⟩ => ⟨S1x1x128, .f32⟩
  | .local _ .vmem, ⟨10, _⟩ => ⟨S128x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x1, .f32⟩
  | .local _ .vmem, ⟨15, _⟩ => ⟨S1x1, .f32⟩
  | .local _ .vmem, ⟨16, _⟩ => ⟨S256x1, .f32⟩
  | .local _ .vmem, ⟨17, _⟩ => ⟨S256x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x524288_S1x524288_0_0 : S2x524288.Slices ![0, 0] S1x524288
  shapeCasts_S1x524288_S524288 : S1x524288.ShapeCasts S524288
  concatenates_S524288_S131072_S655360_d0 : Shape.Concatenates [S524288, S131072] S655360 0
  slices_S2x524288_S1x524288_1_0 : S2x524288.Slices ![1, 0] S1x524288
  bcast_S_S655360 : S_.BroadcastsInDim S655360 (![] : Fin 0 → Fin S655360.rank)
  bcast_S_S131072 : S_.BroadcastsInDim S131072 (![] : Fin 0 → Fin S131072.rank)
  bcast_S655360_S655360x1_0 : S655360.BroadcastsInDim S655360x1 (![0] : Fin 1 → Fin S655360x1.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S655360x1_S655360x128_0_1 : S655360x1.BroadcastsInDim S655360x128 (![0, 1] : Fin 2 → Fin S655360x128.rank)
  bcast_S_S131072x128 : S_.BroadcastsInDim S131072x128 (![] : Fin 0 → Fin S131072x128.rank)
  shapeCasts_S131072x128_S8192x16x128 : S131072x128.ShapeCasts S8192x16x128
  shapeCasts_S128_S1x1x128 : S128.ShapeCasts S1x1x128
  shapeCasts_S256_S1x256 : S256.ShapeCasts S1x256
  shapeCasts_S1_S1x1 : S1.ShapeCasts S1x1
  inb_S256x16x128_S256x16x128_0_0_0 : ∀ a, (![0, 0, 0] : Fin 3 → Nat) a + S256x16x128.size a ≤ S256x16x128.size a
  h_S256x16x128 : 0 < S256x16x128.numel
  shapeCasts_S256x16x128_S256x16x128 : S256x16x128.ShapeCasts S256x16x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S256x16x128 : S1x1x128.Broadcasts S256x16x128
  reduces_S256x16x128_S256x128 : S256x16x128.Reduces [1] S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S256x256 : S1x256.Broadcasts S256x256
  broadcasts_S1x1_S256x1 : S1x1.Broadcasts S256x1
  shapeCasts_S8192x1_S8192 : S8192x1.ShapeCasts S8192
  scatter_S131072_S655360x1_S655360_n_0_0_1_wf : ScatterDims.WF S131072 S655360x1 S655360 [] [0] [0] 1
  gather_S131072_S655360x1_S655360_n_0_n_n_0_1_1_wf : GatherDims.WF S131072 S655360x1 S655360 [] [0] [] [0] [] 1 ![1]
  dot_S4096x128_S128x128_S4096x128_1_0_0_1_n_n_wf : DotDims.WF S4096x128 S128x128 S4096x128 [1] [0] [0] [1] [] []
  gather_S131072x128_S655360x1_S655360x128_1_0_n_n_0_1_1128_wf : GatherDims.WF S131072x128 S655360x1 S655360x128 [1] [0] [] [0] [] 1 ![1, 128]
  scatter_S131072x128_S655360x1_S655360x128_1_0_0_1_wf : ScatterDims.WF S131072x128 S655360x1 S655360x128 [1] [0] [0] 1
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16x128.size a ≤ S8192x16x128.size a
  hwx1_0 : ∀ i : grid1.Coords, EltTy.bits .f32 = 32 ∨ (Rect.block (s := S8192x16x128) S256x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x16x128.size a ≤ S8192x16x128.size a
  hwx1_1 : ∀ i : grid1.Coords, EltTy.bits .f32 = 32 ∨ (Rect.block (s := S8192x16x128) S256x16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S1x1x128.size a
  hwx1_2 : ∀ i : grid1.Coords, EltTy.bits .f32 = 32 ∨ (Rect.block (s := S1x1x128) S1x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .f32 = 32 ∨ (Rect.block (s := S256x1) S256x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S8192x1.size a
  hwx1_9 : ∀ i : grid1.Coords, EltTy.bits .f32 = 32 ∨ (Rect.block (s := S8192x1) S256x1.size (cc1_transform_9 i) (hinb1_9 i)).WholeWords (EltTy.packing .f32)

variable [Facts₀]

def scatter_S131072_S655360x1_S655360_n_0_0_1 : ScatterDims S131072 S655360x1 S655360 where
  updateWindowDims := []
  insertedWindowDims := [0]
  scatterDimsToOperandDims := [0]
  indexVectorDim := 1
  wf := scatter_S131072_S655360x1_S655360_n_0_0_1_wf
def gather_S131072_S655360x1_S655360_n_0_n_n_0_1_1 : GatherDims S131072 S655360x1 S655360 where
  offsetDims := []
  collapsedSliceDims := [0]
  operandBatchingDims := []
  startIndicesBatchingDims := []
  startIndexMap := [0]
  indexVectorDim := 1
  sliceSizes := ![1]
  wf := gather_S131072_S655360x1_S655360_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S131072x128_S655360x1_S655360x128_1_0_n_n_0_1_1128 : GatherDims S131072x128 S655360x1 S655360x128 where
  offsetDims := [1]
  collapsedSliceDims := [0]
  operandBatchingDims := []
  startIndicesBatchingDims := []
  startIndexMap := [0]
  indexVectorDim := 1
  sliceSizes := ![1, 128]
  wf := gather_S131072x128_S655360x1_S655360x128_1_0_n_n_0_1_1128_wf
def scatter_S131072x128_S655360x1_S655360x128_1_0_0_1 : ScatterDims S131072x128 S655360x1 S655360x128 where
  updateWindowDims := [1]
  insertedWindowDims := [0]
  scatterDimsToOperandDims := [0]
  indexVectorDim := 1
  wf := scatter_S131072x128_S655360x1_S655360x128_1_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S256x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S256x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v50) S256x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S131072x128 : Shape := ⟨2, ![131072, 128]⟩
abbrev S2x524288 : Shape := ⟨2, ![2, 524288]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S131072 : Shape := ⟨1, ![131072]⟩
abbrev S1x524288 : Shape := ⟨2, ![1, 524288]⟩
abbrev S524288 : Shape := ⟨1, ![524288]⟩
abbrev S655360 : Shape := ⟨1, ![655360]⟩
abbrev S_ : Shape := ⟨0, ![]⟩
abbrev S655360x1 : Shape := ⟨2, ![655360, 1]⟩
abbrev S655360x128 : Shape := ⟨2, ![655360, 128]⟩
abbrev S1x128 : Shape := ⟨2, ![1, 128]⟩
abbrev S8192x16x128 : Shape := ⟨3, ![8192, 16, 128]⟩
abbrev S8192x128 : Shape := ⟨2, ![8192, 128]⟩
abbrev S8192x256 : Shape := ⟨2, ![8192, 256]⟩
abbrev S1x256 : Shape := ⟨2, ![1, 256]⟩
abbrev S8192x1 : Shape := ⟨2, ![8192, 1]⟩
abbrev S1x1 : Shape := ⟨2, ![1, 1]⟩
abbrev S8192 : Shape := ⟨1, ![8192]⟩

abbrev nBuf : Space → Nat
  | .hbm => 96
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S2x524288, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S131072, .i32⟩
  | .hbm, ⟨11, _⟩ => ⟨S1x524288, .i32⟩
  | .hbm, ⟨12, _⟩ => ⟨S524288, .i32⟩
  | .hbm, ⟨13, _⟩ => ⟨S655360, .i32⟩
  | .hbm, ⟨14, _⟩ => ⟨S1x524288, .i32⟩
  | .hbm, ⟨15, _⟩ => ⟨S524288, .i32⟩
  | .hbm, ⟨16, _⟩ => ⟨S655360, .i32⟩
  | .hbm, ⟨17, _⟩ => ⟨S_, .f32⟩
  | .hbm, ⟨18, _⟩ => ⟨S655360, .f32⟩
  | .hbm, ⟨19, _⟩ => ⟨S_, .f32⟩
  | .hbm, ⟨20, _⟩ => ⟨S131072, .f32⟩
  | .hbm, ⟨21, _⟩ => ⟨S655360x1, .i32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .i1⟩
  | .hbm, ⟨26, _⟩ => ⟨S131072, .f32⟩
  | .hbm, ⟨27, _⟩ => ⟨S_, .f32⟩
  | .hbm, ⟨28, _⟩ => ⟨S_, .f32⟩
  | .hbm, ⟨29, _⟩ => ⟨S131072, .f32⟩
  | .hbm, ⟨30, _⟩ => ⟨S131072, .f32⟩
  | .hbm, ⟨31, _⟩ => ⟨S_, .i32⟩
  | .hbm, ⟨32, _⟩ => ⟨S655360, .i32⟩
  | .hbm, ⟨33, _⟩ => ⟨S655360, .i1⟩
  | .hbm, ⟨34, _⟩ => ⟨S_, .i32⟩
  | .hbm, ⟨35, _⟩ => ⟨S655360, .i32⟩
  | .hbm, ⟨36, _⟩ => ⟨S655360, .i32⟩
  | .hbm, ⟨37, _⟩ => ⟨S655360, .i32⟩
  | .hbm, ⟨38, _⟩ => ⟨S655360x1, .i32⟩
  | .hbm, ⟨39, _⟩ => ⟨S655360, .f32⟩
  | .hbm, ⟨40, _⟩ => ⟨S_, .i32⟩
  | .hbm, ⟨41, _⟩ => ⟨S655360, .i32⟩
  | .hbm, ⟨42, _⟩ => ⟨S655360, .i1⟩
  | .hbm, ⟨43, _⟩ => ⟨S_, .i32⟩
  | .hbm, ⟨44, _⟩ => ⟨S655360, .i32⟩
  | .hbm, ⟨45, _⟩ => ⟨S655360, .i32⟩
  | .hbm, ⟨46, _⟩ => ⟨S655360, .i32⟩
  | .hbm, ⟨47, _⟩ => ⟨S655360x1, .i32⟩
  | .hbm, ⟨48, _⟩ => ⟨S655360, .f32⟩
  | .hbm, ⟨49, _⟩ => ⟨S655360, .f32⟩
  | .hbm, ⟨50, _⟩ => ⟨S131072x128, .f32⟩
  | .hbm, ⟨51, _⟩ => ⟨S_, .i32⟩
  | .hbm, ⟨52, _⟩ => ⟨S655360, .i32⟩
  | .hbm, ⟨53, _⟩ => ⟨S655360, .i1⟩
  | .hbm, ⟨54, _⟩ => ⟨S_, .i32⟩
  | .hbm, ⟨55, _⟩ => ⟨S655360, .i32⟩
  | .hbm, ⟨56, _⟩ => ⟨S655360, .i32⟩
  | .hbm, ⟨57, _⟩ => ⟨S655360, .i32⟩
  | .hbm, ⟨58, _⟩ => ⟨S655360x1, .i32⟩
  | .hbm, ⟨59, _⟩ => ⟨S655360x128, .f32⟩
  | .hbm, ⟨60, _⟩ => ⟨S655360x1, .f32⟩
  | .hbm, ⟨61, _⟩ => ⟨S655360x128, .f32⟩
  | .hbm, ⟨62, _⟩ => ⟨S655360x128, .f32⟩
  | .hbm, ⟨63, _⟩ => ⟨S_, .f32⟩
  | .hbm, ⟨64, _⟩ => ⟨S131072x128, .f32⟩
  | .hbm, ⟨65, _⟩ => ⟨S655360x1, .i32⟩
  | .hbm, ⟨66, _⟩ => ⟨S131072x128, .f32⟩
  | .hbm, ⟨67, _⟩ => ⟨S1x128, .f32⟩
  | .hbm, ⟨68, _⟩ => ⟨S131072x128, .f32⟩
  | .hbm, ⟨69, _⟩ => ⟨S131072x128, .f32⟩
  | .hbm, ⟨70, _⟩ => ⟨S_, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S8192x16x128, .f32⟩
  | .hbm, ⟨75, _⟩ => ⟨S_, .f32⟩
  | .hbm, ⟨76, _⟩ => ⟨S8192x128, .f32⟩
  | .hbm, ⟨77, _⟩ => ⟨S8192x256, .f32⟩
  | .hbm, ⟨78, _⟩ => ⟨S1x256, .f32⟩
  | .hbm, ⟨79, _⟩ => ⟨S8192x256, .f32⟩
  | .hbm, ⟨80, _⟩ => ⟨S8192x256, .f32⟩
  | .hbm, ⟨81, _⟩ => ⟨S_, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S1x256, .f32⟩
  | .hbm, ⟨86, _⟩ => ⟨S8192x256, .f32⟩
  | .hbm, ⟨87, _⟩ => ⟨S8192x256, .f32⟩
  | .hbm, ⟨88, _⟩ => ⟨S_, .f32⟩
  | .hbm, ⟨89, _⟩ => ⟨S8192x256, .f32⟩
  | .hbm, ⟨90, _⟩ => ⟨S8192x256, .f32⟩
  | .hbm, ⟨91, _⟩ => ⟨S8192x1, .f32⟩
  | .hbm, ⟨92, _⟩ => ⟨S1x1, .f32⟩
  | .hbm, ⟨93, _⟩ => ⟨S8192x1, .f32⟩
  | .hbm, ⟨94, _⟩ => ⟨S8192x1, .f32⟩
  | .hbm, ⟨95, _⟩ => ⟨S8192, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S131072_S655360_d0 : Shape.Concatenates [S524288, S131072] S655360 0
  slices_S2x524288_S1x524288_1_0 : S2x524288.Slices ![1, 0] S1x524288
  bcast_S_S655360 : S_.BroadcastsInDim S655360 (![] : Fin 0 → Fin S655360.rank)
  bcast_S_S131072 : S_.BroadcastsInDim S131072 (![] : Fin 0 → Fin S131072.rank)
  bcast_S655360_S655360x1_0 : S655360.BroadcastsInDim S655360x1 (![0] : Fin 1 → Fin S655360x1.rank)
  bcast_S655360x1_S655360x128_0_1 : S655360x1.BroadcastsInDim S655360x128 (![0, 1] : Fin 2 → Fin S655360x128.rank)
  bcast_S_S131072x128 : S_.BroadcastsInDim S131072x128 (![] : Fin 0 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S8192x16x128 : S131072x128.ShapeCasts S8192x16x128
  reducesTo_S8192x16x128_S8192x128_d1 : S8192x16x128.ReducesTo [1] S8192x128
  h_S_ : 0 < S_.numel
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  scatter_S131072_S655360x1_S655360_n_0_0_1_wf : ScatterDims.WF S131072 S655360x1 S655360 [] [0] [0] 1
  gather_S131072_S655360x1_S655360_n_0_n_n_0_1_1_wf : GatherDims.WF S131072 S655360x1 S655360 [] [0] [] [0] [] 1 ![1]
  dot_S131072x128_S128x128_S131072x128_1_0_0_1_n_n_wf : DotDims.WF S131072x128 S128x128 S131072x128 [1] [0] [0] [1] [] []
  gather_S131072x128_S655360x1_S655360x128_1_0_n_n_0_1_1128_wf : GatherDims.WF S131072x128 S655360x1 S655360x128 [1] [0] [] [0] [] 1 ![1, 128]
  scatter_S131072x128_S655360x1_S655360x128_1_0_0_1_wf : ScatterDims.WF S131072x128 S655360x1 S655360x128 [1] [0] [0] 1
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []

variable [Facts₀]

def scatter_S131072_S655360x1_S655360_n_0_0_1 : ScatterDims S131072 S655360x1 S655360 where
  updateWindowDims := []
  insertedWindowDims := [0]
  scatterDimsToOperandDims := [0]
  indexVectorDim := 1
  wf := scatter_S131072_S655360x1_S655360_n_0_0_1_wf
def gather_S131072_S655360x1_S655360_n_0_n_n_0_1_1 : GatherDims S131072 S655360x1 S655360 where
  offsetDims := []
  collapsedSliceDims := [0]
  operandBatchingDims := []
  startIndicesBatchingDims := []
  startIndexMap := [0]
  indexVectorDim := 1
  sliceSizes := ![1]
  wf := gather_S131072_S655360x1_S655360_n_0_n_n_0_1_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def gather_S131072x128_S655360x1_S655360x128_1_0_n_n_0_1_1128 : GatherDims S131072x128 S655360x1 S655360x128 where
  offsetDims := [1]
  collapsedSliceDims := [0]
  operandBatchingDims := []
  startIndicesBatchingDims := []
  startIndexMap := [0]
  indexVectorDim := 1
  sliceSizes := ![1, 128]
  wf := gather_S131072x128_S655360x1_S655360x128_1_0_n_n_0_1_1128_wf
def scatter_S131072x128_S655360x1_S655360x128_1_0_0_1 : ScatterDims S131072x128 S655360x1 S655360x128 where
  updateWindowDims := [1]
  insertedWindowDims := [0]
  scatterDimsToOperandDims := [0]
  indexVectorDim := 1
  wf := scatter_S131072x128_S655360x1_S655360x128_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Spec.lean ====
/-
  What both programs compute, as functions on the extended reals, index by index.

  A graph convolution with self-loops gives every node a 128-vector `g`; the network then adds a bias, clips at zero,
  adds the node's own features back, sums the 16 nodes of one graph, and sends the pooled 128-vector through three
  affine layers (128 → 256 → 256 → 1), the first two clipped at zero. `rowOut` is that head for ONE graph, from the
  graph's 16 × 128 convolution rows and feature rows. Nothing here distributes a product over a sum: every sum is a
  plain finite sum in the commutative monoid of the extended reals, so no finiteness is needed anywhere.

  `xw` is the dense map `state · W` the convolution starts from; `headOfWindows` is the head over arrays laid out as
  the fused kernel receives them (8192 graphs × 16 nodes × 128 channels, biases as rows), `head` the same over the
  arrays as the caller passes them (131072 nodes × 128 channels, biases as vectors): graph `b` owns nodes
  `16 b … 16 b + 15`.
-/
import Idealize.ShloMosaic.PureOps.Ideal
import Idealize.ShloMosaic.Lib.ValueIdx

noncomputable section

open scoped BigOperators

namespace GcnPool

open Idealize.ShloMosaic Idealize.ShloMosaic.ValueIdx

/-- One graph's output: pool `max (g + bias) 0 + s` over the 16 nodes, then the three layers. -/
def rowOut (g s : Fin 16 → Fin 128 → EReal) (bg : Fin 128 → EReal) (w1 : Fin 128 → Fin 256 → EReal) (b1 : Fin 256 → EReal)
    (w2 : Fin 256 → Fin 256 → EReal) (b2 : Fin 256 → EReal) (w3 : Fin 256 → EReal) (b3 : EReal) : EReal :=
  (∑ k : Fin 256, max ((∑ j : Fin 256, max ((∑ c : Fin 128, (∑ a : Fin 16, (max (g a c + bg c) 0 + s a c)) * w1 c j) + b1 j) 0 * w2 j k) + b2 k) 0 * w3 k) + b3

/-- The dense map: row `r` of `x` against column `n` of `w`. -/
def xw (x : (⟨2, ![131072, 128]⟩ : Shape).Idx → EReal) (w : (⟨2, ![128, 128]⟩ : Shape).Idx → EReal) :
    (⟨2, ![131072, 128]⟩ : Shape).Idx → EReal :=
  fun i => ∑ k : Fin 128, x (ix2 (n0 := 131072) (n1 := 128) ⟨(i 0).val, (i 0).isLt⟩ k) * w (ix2 (n0 := 128) (n1 := 128) k ⟨(i 1).val, (i 1).isLt⟩)

/-- The head over the arrays as the fused kernel's windows see them. -/
def headOfWindows (g3 s3 : (⟨3, ![8192, 16, 128]⟩ : Shape).Idx → EReal) (bg3 : (⟨3, ![1, 1, 128]⟩ : Shape).Idx → EReal)
    (w1 : (⟨2, ![128, 256]⟩ : Shape).Idx → EReal) (b1r : (⟨2, ![1, 256]⟩ : Shape).Idx → EReal)
    (w2 : (⟨2, ![256, 256]⟩ : Shape).Idx → EReal) (b2r : (⟨2, ![1, 256]⟩ : Shape).Idx → EReal)
    (w3 : (⟨2, ![256, 1]⟩ : Shape).Idx → EReal) (b3r : (⟨2, ![1, 1]⟩ : Shape).Idx → EReal) :
    (⟨2, ![8192, 1]⟩ : Shape).Idx → EReal :=
  fun i => rowOut (fun a c => g3 (ix3 (n0 := 8192) (n1 := 16) (n2 := 128) ⟨(i 0).val, (i 0).isLt⟩ a c))
    (fun a c => s3 (ix3 (n0 := 8192) (n1 := 16) (n2 := 128) ⟨(i 0).val, (i 0).isLt⟩ a c))
    (fun c => bg3 (ix3 (n0 := 1) (n1 := 1) (n2 := 128) 0 0 c))
    (fun c j => w1 (ix2 (n0 := 128) (n1 := 256) c j)) (fun j => b1r (ix2 (n0 := 1) (n1 := 256) 0 j))
    (fun j k => w2 (ix2 (n0 := 256) (n1 := 256) j k)) (fun k => b2r (ix2 (n0 := 1) (n1 := 256) 0 k))
    (fun k => w3 (ix2 (n0 := 256) (n1 := 1) k 0)) (b3r (ix2 (n0 := 1) (n1 := 1) 0 0))

/-- Node `16 b + a` of graph `b`. -/
def node (b : Fin 8192) (a : Fin 16) : Fin 131072 := ⟨b.val * 16 + a.val, by have := b.isLt; have := a.isLt; omega⟩

/-- The head over the arrays as the caller passes them. -/
def head (g s : (⟨2, ![131072, 128]⟩ : Shape).Idx → EReal) (bg : (⟨1, ![128]⟩ : Shape).Idx → EReal)
    (w1 : (⟨2, ![128, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 1]⟩ : Shape).Idx → EReal) (b3 : (⟨1, ![1]⟩ : Shape).Idx → EReal) :
    (⟨1, ![8192]⟩ : Shape).Idx → EReal :=
  fun i => rowOut (fun a c => g (ix2 (n0 := 131072) (n1 := 128) (node ⟨(i 0).val, (i 0).isLt⟩ a) c))
    (fun a c => s (ix2 (n0 := 131072) (n1 := 128) (node ⟨(i 0).val, (i 0).isLt⟩ a) c))
    (fun c => bg (ix1 (n := 128) c))
    (fun c j => w1 (ix2 (n0 := 128) (n1 := 256) c j)) (fun j => b1 (ix1 (n := 256) j))
    (fun j k => w2 (ix2 (n0 := 256) (n1 := 256) j k)) (fun k => b2 (ix1 (n := 256) k))
    (fun k => w3 (ix2 (n0 := 256) (n1 := 1) k 0)) (b3 (ix1 (n := 1) 0))

end GcnPool

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Region0.lean ====
/-
  The first launch: `xw = state · W`, 32 blocks of 4096 rows. Each block's stored value is the product of the block's
  rows with the whole 128 × 128 weight, into a zero accumulator; the narrowing of the operands to a 16-bit format is
  the identity on the extended reals. The blocks tile the rows, so the array the launch leaves is `GcnPool.xw` of the
  two arrays it found.
-/
import proofs.«119075_j1752346657369_1_alg».proof.Proof.Gen.KernelIdeal.Frame
import proofs.«119075_j1752346657369_1_alg».proof.Proof.Spec
import proofs.«119075_j1752346657369_1_alg».proof.Proof.LibPlainDot
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The offsets of a rectangle that starts at the origin. -/
theorem origin_offsets : (![0, 0] : Fin 2 → Nat) = fun _ => 0 := funext fun a => by fin_cases a <;> rfl

/-- What one block's body stores, at row `y` and column `n` of the block. -/
theorem out0_2_apply (x0 : Vec Ideal S4096x128 .f32) (x1 : Vec Ideal S128x128 .f32) (y : Fin 4096) (n : Fin 128) :
    out0_2 (F := Ideal) x0 x1 (ix2 (n0 := 4096) (n1 := 128) y n)
      = ∑ k : Fin 128, x0 (ix2 (n0 := 4096) (n1 := 128) y k) * x1 (ix2 (n0 := 128) (n1 := 128) k n) := by
  unfold out0_2
  rw [View.canon_unit_zero origin_offsets]
  simp only [View.ld_unit_zero (S := S4096x128) origin_offsets, View.ld_unit_zero (S := S128x128) origin_offsets]
  unfold k0_pay1
  exact PlainDot.matmul_zero_apply 4096 128 128 (truncf .bf16 x0 bitsLt_bf16_f32) (truncf .bf16 x1 bitsLt_bf16_f32)
    (ix2 (n0 := 4096) (n1 := 128) y n)

/-- The three index maps over the 32 points: the row blocks move with the point, the weight stays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 4096 rows starting at row `4096 s` of `X`, against the whole weight `W`: what the body stores at a block
    index is the dense map of `X` and `W` at the array index with the same column and row `4096 s` further down. -/
theorem block_is_xw (X : S131072x128.Idx → EReal) (W : S128x128.Idx → EReal)
    (x0 : Vec Ideal S4096x128 .f32) (x1 : Vec Ideal S128x128 .f32) (s : Nat)
    (h0 : ∀ (y : S4096x128.Idx) (i : S131072x128.Idx), (i 0).val = s * 4096 + (y 0).val → (i 1).val = (y 1).val → x0 y = X i)
    (h1 : x1 = W)
    (y : S4096x128.Idx) (i : S131072x128.Idx) (hi0 : (i 0).val = s * 4096 + (y 0).val) (hi1 : (i 1).val = (y 1).val) :
    out0_2 (F := Ideal) x0 x1 y = GcnPool.xw X W i := by
  obtain ⟨p, q, rfl⟩ : ∃ (p : Fin 4096) (q : Fin 128), y = ix2 p q := ⟨y 0, y 1, eq_ix2 y⟩
  rw [out0_2_apply]
  subst h1
  unfold GcnPool.xw
  refine Finset.sum_congr rfl fun k _ => ?_
  have hq : (⟨(i 1).val, (i 1).isLt⟩ : Fin 128) = q := Fin.ext hi1
  rw [hq]
  exact congrArg (· * x1 (ix2 (n0 := 128) (n1 := 128) k q)) (h0 (ix2 (n0 := 4096) (n1 := 128) p k) _ hi0 rfl)

variable (V : (c : Dev nD) → (b : Ref sig .tc) → Buf (Elt Ideal) ((c : Thread nD τ).loc b))

/-- What point `t` writes back is block `t` of the dense map of the two arrays the launch found. -/
theorem written_back (c : Dev nD) (t : Fin cfg0.N) :
    (dat0 (F := Ideal) V c).flushed 2 t
      = ((cfg0.win 2).blk t).view.read (Elt Ideal) (GcnPool.xw (V c main_arg0) (V c main_arg2)) := by
  show (cfg0.win 2).cut (grid0.coords t) ((dat0 V c).after 2 t) = _
  rw [after0_2]
  obtain ⟨e00, e01, e10, e11, e20, e21⟩ := block_indices t
  funext j
  refine block_is_xw (V c main_arg0) (V c main_arg2) (iblk0 V c 0 t) (iblk0 V c 1 t) t.val ?_ ?_
    ((cfg0.win 2).xinj (grid0.coords t) j) (((cfg0.win 2).blk t).view.emb j) ?_ ?_
  · intro y i hy0 hy1
    show V c main_arg0 (((cfg0.win 0).blk t).view.emb y) = V c main_arg0 i
    refine congrArg (V c main_arg0) (funext fun a => Fin.ext ?_)
    match a with
    | ⟨0, _⟩ => show win0_0.index t (0 : Fin 2) * 4096 + 1 * (y 0).val = (i 0).val; omega
    | ⟨1, _⟩ => show win0_0.index t (1 : Fin 2) * 128 + 1 * (y 1).val = (i 1).val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 4096 + 1 * (j 0).val = t.val * 4096 + (j 0).val; omega
  · show win0_2.index t (1 : Fin 2) * 128 + 1 * (j 1).val = (j 1).val; omega

/-- An index of the output array lies in point `t`'s block iff each coordinate lies in the block's range on its axis. -/
theorem mem_row_block (t : Fin cfg0.N) (i : S131072x128.Idx) :
    i ∈ ((cfg0.win 2).blk t).view.set
      ↔ ∀ a : Fin 2, win0_2.index t a * S4096x128.size a ≤ (i a).val ∧ (i a).val < win0_2.index t a * S4096x128.size a + S4096x128.size a := by
  show i ∈ ((View.whole main_v30).slice (win0_2.rect t)).set ↔ _
  rw [View.set_slice_whole, Rect.mem_set_unit]
  exact Iff.rfl

/-- Row `r` of the output array is in the block of point `r / 4096`: the 32 blocks tile the rows. -/
theorem rows_tiled (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨-, -, -, -, e20, e21⟩ := block_indices t
  refine ⟨t, flush0_2 t, ?_⟩
  rw [mem_row_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- The output array after the launch, from the arrays the launch found. -/
theorem arr0 (c : Dev nD) :
    (dat0 (F := Ideal) V c).arrAt 2 cfg0.N = GcnPool.xw (V c main_arg0) (V c main_arg2) := by
  exact (dat0 V c).arrAt_eq_of_cover 2 (GcnPool.xw (V c main_arg0) (V c main_arg2)) (fun t _ => written_back V c t) rows_tiled

end Cert.KernelIdeal.Region0

end
-- ==== Proof.Region1Body.lean ====
/-
  The fused head's body on one block of 256 graphs: it adds the bias row to the 256 × 16 × 128 convolution block, clips
  at zero, adds the feature block, sums over the 16 nodes, and runs the three layers on the 256 pooled rows against the
  whole weights (each product into a zero accumulator; the narrowings to a 16-bit format are the identity on the
  extended reals). Row `y` of what it stores depends only on row `y` of its two big blocks: it is `GcnPool.rowOut` of
  those rows.
-/
import proofs.«119075_j1752346657369_1_alg».proof.Proof.Gen.KernelIdeal.Frame
import proofs.«119075_j1752346657369_1_alg».proof.Proof.Spec
import proofs.«119075_j1752346657369_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets of a whole rectangle of rank 2 … -/
theorem hz2 : (![0, 0] : Fin 2 → Nat) = fun _ => 0 := funext fun a => by fin_cases a <;> rfl
/-- … and of rank 3. -/
theorem hz3 : (![0, 0, 0] : Fin 3 → Nat) = fun _ => 0 := funext fun a => by fin_cases a <;> rfl

/-- The body stores, through the one whole-buffer piece, its arithmetic applied to the blocks as loaded. -/
theorem out1_9_eq (x0 x1 : Vec Ideal S256x16x128 .f32) (x2 : Vec Ideal S1x1x128 .f32) (x3 : Vec Ideal S128x256 .f32)
    (x4 : Vec Ideal S1x256 .f32) (x5 : Vec Ideal S256x256 .f32) (x6 : Vec Ideal S1x256 .f32) (x7 : Vec Ideal S256x1 .f32)
    (x8 : Vec Ideal S1x1 .f32) :
    out1_9 (F := Ideal) x0 x1 x2 x3 x4 x5 x6 x7 x8
      = k1_pay1 (k1_pay2 x7) (k1_pay3 x8) (k1_pay4 x0 x1 x2 x3 x4 x5) (k1_pay5 x6) := by
  unfold out1_9
  rw [View.canon_unit_zero hz2]
  simp only [View.ld_unit_zero (S := S256x1) hz2, View.ld_unit_zero (S := S1x1) hz2,
    View.ld_unit_zero (S := S256x16x128) hz3, View.ld_unit_zero (S := S1x1x128) hz3,
    View.ld_unit_zero (S := S128x256) hz2, View.ld_unit_zero (S := S1x256) hz2,
    View.ld_unit_zero (S := S256x256) hz2]

/-- The 1 × 1 × 128 bias row, spread over the 256 × 16 × 128 block, reads its entry of the same channel. -/
theorem bias_apply (v : Vec Ideal S1x1x128 .f32) (h : S1x1x128.Broadcasts S256x16x128) (y : Fin 256) (a : Fin 16)
    (c : Fin 128) :
    broadcastTo S256x16x128 v h (ix3 (n0 := 256) (n1 := 16) (n2 := 128) y a c)
      = v (ix3 (n0 := 1) (n1 := 1) (n2 := 128) 0 0 c) := by
  refine broadcastTo_apply v h (ix3 (n0 := 256) (n1 := 16) (n2 := 128) y a c)
    (ix3 (n0 := 1) (n1 := 1) (n2 := 128) 0 0 c) fun ax => ?_
  match ax with
  | ⟨0, _⟩ => rfl
  | ⟨1, _⟩ => rfl
  | ⟨2, _⟩ => rfl

/-- The pooled row: at graph `y` and channel `c`, the sum over the 16 nodes of the clipped biased convolution plus
    the feature. -/
theorem pooled_apply (v0 v2 : Vec Ideal S256x16x128 .f32) (v4 : Vec Ideal S1x1x128 .f32) (y : Fin 256) (c : Fin 128) :
    multiReduction (F := Ideal) .add [1] S256x128
        (addf (maximumf (addf (shapeCast S256x16x128 v0 shapeCasts_S256x16x128_S256x16x128)
            (broadcastTo S256x16x128 (shapeCast S1x1x128 v4 shapeCasts_S1x1x128_S1x1x128) broadcasts_S1x1x128_S256x16x128))
            (broadcast S256x16x128 (Scalar.ofBits (F := Ideal) .f32 0x00000000#32)))
          (shapeCast S256x16x128 v2 shapeCasts_S256x16x128_S256x16x128))
        0x00000000#32 reduces_S256x16x128_S256x128 (.inl rfl) rfl (ix2 (n0 := 256) (n1 := 128) y c)
      = ∑ a : Fin 16, (max (v0 (ix3 (n0 := 256) (n1 := 16) (n2 := 128) y a c)
          + v4 (ix3 (n0 := 1) (n1 := 1) (n2 := 128) 0 0 c)) 0 + v2 (ix3 (n0 := 256) (n1 := 16) (n2 := 128) y a c)) := by
  refine (Ideal.multiReduction_add_single _ _ reduces_S256x16x128_S256x128 _ _ _).trans ?_
  show ∑ a : Fin 16, _ = ∑ a : Fin 16, _
  refine Finset.sum_congr rfl ?_
  intro (a : Fin 16) _
  have hl : reduces_S256x16x128_S256x128.lift (ix2 (n0 := 256) (n1 := 128) y c) a
      = ix3 (n0 := 256) (n1 := 16) (n2 := 128) y a c := funext fun ax => Fin.ext (by
    match ax with
    | ⟨0, _⟩ => rfl
    | ⟨1, _⟩ => rfl
    | ⟨2, _⟩ => rfl)
  rw [hl, shapeCast_self, shapeCast_self, shapeCast_self]
  rw [addf_apply, maximumf_apply, addf_apply, bias_apply, broadcast_apply]
  show max (_ + _) (Ideal.ofBits .f32 0x00000000#32) + _ = _
  rw [Ideal.ofBits_zero_f32]

/-- One dense layer with its clip: row `y`, column `j` of the product of a 256 × K array with a K × 256 array
    (into the zero accumulator; the narrowings are the identity), plus the bias row's entry `j`, clipped at zero. -/
theorem dense_apply (K : ℕ) (p : FVec Ideal ⟨2, ![256, K]⟩ .f32) (w : FVec Ideal ⟨2, ![K, 256]⟩ .f32)
    (b : FVec Ideal S1x256 .f32) (y j : Fin 256) :
    maximumf (addf (matmul (DotDims.plain 256 K 256) none (truncf .bf16 p bitsLt_bf16_f32) (truncf .bf16 w bitsLt_bf16_f32)
            (constant S256x256 .f32 0x00000000#32))
          (broadcastTo S256x256 (shapeCast S1x256 b shapeCasts_S1x256_S1x256) broadcasts_S1x256_S256x256))
        (broadcast S256x256 (Scalar.ofBits (F := Ideal) .f32 0x00000000#32)) (ix2 (n0 := 256) (n1 := 256) y j)
      = max ((∑ c : Fin K, p (ix2 (n0 := 256) (n1 := K) y c) * w (ix2 (n0 := K) (n1 := 256) c j))
          + b (ix2 (n0 := 1) (n1 := 256) 0 j)) 0 := by
  rw [maximumf_apply, addf_apply, broadcast_apply, shapeCast_self]
  rw [broadcastTo_1b_ab_apply b broadcasts_S1x256_S256x256 y j]
  rw [show matmul (DotDims.plain 256 K 256) none (truncf .bf16 p bitsLt_bf16_f32) (truncf .bf16 w bitsLt_bf16_f32)
        (constant S256x256 .f32 0x00000000#32) (ix2 (n0 := 256) (n1 := 256) y j)
      = ∑ c : Fin K, p (ix2 (n0 := 256) (n1 := K) y c) * w (ix2 (n0 := K) (n1 := 256) c j) from
    PlainDot.matmul_zero_apply 256 K 256 _ _ _]
  show max (_ + _) (Ideal.ofBits .f32 0x00000000#32) = _
  rw [Ideal.ofBits_zero_f32]

/-- The output column: row `y` of the product of the 256 × 256 array with the 256 × 1 column, plus the one bias. -/
theorem head_apply (h : FVec Ideal S256x256 .f32) (w : FVec Ideal S256x1 .f32) (b : FVec Ideal S1x1 .f32) (y : Fin 256) :
    addf (matmul (DotDims.plain 256 256 1) none (truncf .bf16 h bitsLt_bf16_f32) (truncf .bf16 w bitsLt_bf16_f32)
          (constant S256x1 .f32 0x00000000#32))
        (broadcastTo S256x1 (shapeCast S1x1 b shapeCasts_S1x1_S1x1) broadcasts_S1x1_S256x1)
        (ix2 (n0 := 256) (n1 := 1) y 0)
      = (∑ k : Fin 256, h (ix2 (n0 := 256) (n1 := 256) y k) * w (ix2 (n0 := 256) (n1 := 1) k 0))
          + b (ix2 (n0 := 1) (n1 := 1) 0 0) := by
  rw [addf_apply, shapeCast_self]
  rw [broadcastTo_1b_ab_apply b broadcasts_S1x1_S256x1 y 0]
  rw [show matmul (DotDims.plain 256 256 1) none (truncf .bf16 h bitsLt_bf16_f32) (truncf .bf16 w bitsLt_bf16_f32)
        (constant S256x1 .f32 0x00000000#32) (ix2 (n0 := 256) (n1 := 1) y 0)
      = ∑ k : Fin 256, h (ix2 (n0 := 256) (n1 := 256) y k) * w (ix2 (n0 := 256) (n1 := 1) k 0) from
    PlainDot.matmul_zero_apply 256 256 1 _ _ _]

/-- What one block's body stores at row `y`: the head of that row's graph. -/
theorem out1_9_apply (x0 x1 : Vec Ideal S256x16x128 .f32) (x2 : Vec Ideal S1x1x128 .f32) (x3 : Vec Ideal S128x256 .f32)
    (x4 : Vec Ideal S1x256 .f32) (x5 : Vec Ideal S256x256 .f32) (x6 : Vec Ideal S1x256 .f32) (x7 : Vec Ideal S256x1 .f32)
    (x8 : Vec Ideal S1x1 .f32) (y : Fin 256) :
    out1_9 (F := Ideal) x0 x1 x2 x3 x4 x5 x6 x7 x8 (ix2 (n0 := 256) (n1 := 1) y 0)
      = GcnPool.rowOut (fun a c => x0 (ix3 (n0 := 256) (n1 := 16) (n2 := 128) y a c))
          (fun a c => x1 (ix3 (n0 := 256) (n1 := 16) (n2 := 128) y a c))
          (fun c => x2 (ix3 (n0 := 1) (n1 := 1) (n2 := 128) 0 0 c))
          (fun c j => x3 (ix2 (n0 := 128) (n1 := 256) c j)) (fun j => x4 (ix2 (n0 := 1) (n1 := 256) 0 j))
          (fun j k => x5 (ix2 (n0 := 256) (n1 := 256) j k)) (fun k => x6 (ix2 (n0 := 1) (n1 := 256) 0 k))
          (fun k => x7 (ix2 (n0 := 256) (n1 := 1) k 0)) (x8 (ix2 (n0 := 1) (n1 := 1) 0 0)) := by
  rw [out1_9_eq]
  refine (head_apply _ x7 x8 y).trans ?_
  unfold GcnPool.rowOut
  refine congrArg (· + _) (Finset.sum_congr rfl fun k _ => congrArg (· * _) ?_)
  refine (dense_apply 256 _ x5 x6 y k).trans ?_
  refine congrArg (fun t => max (t + _) 0) (Finset.sum_congr rfl fun j _ => congrArg (· * _) ?_)
  refine (dense_apply 128 _ x3 x4 y j).trans ?_
  refine congrArg (fun t => max (t + _) 0) (Finset.sum_congr rfl fun c _ => congrArg (· * _) ?_)
  exact pooled_apply x0 x1 x2 y c

end Cert.KernelIdeal.Region1

end
-- ==== Proof.Region1.lean ====
/-
  The second launch: the fused head, 32 blocks of 256 graphs. Block `t` holds graphs `256 t … 256 t + 255`; its two big
  input blocks are those graphs' rows of the convolution and feature arrays, the other seven windows are whole arrays.
  The blocks tile the graphs, so the array the launch leaves is `GcnPool.headOfWindows` of the arrays it found.
-/
import proofs.«119075_j1752346657369_1_alg».proof.Proof.Gen.KernelIdeal.Frame
import proofs.«119075_j1752346657369_1_alg».proof.Proof.Spec
import proofs.«119075_j1752346657369_1_alg».proof.Proof.Region1Body
import Idealize.ShloMosaic.Lib.Pipeline.Value
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The index maps, point by point: the two big inputs and the output sit at block `(t, 0[, 0])`, the seven small
    windows at the origin. -/
theorem index_maps : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- The block of convolution rows at point `t` is graphs `256 t … 256 t + 255` of the array. -/
theorem conv_block_apply (c : Dev nD) (t : Fin cfg1.N) (p : Fin 256) (a : Fin 16) (ch : Fin 128) (h : 256 * t.val + p.val < 8192) :
    (iblk1 (F := Ideal) V c 0 t : Vec Ideal S256x16x128 .f32) (ix3 (n0 := 256) (n1 := 16) (n2 := 128) p a ch)
      = (V c main_v44 : S8192x16x128.Idx → Elt Ideal .f32) (ix3 (n0 := 8192) (n1 := 16) (n2 := 128) ⟨256 * t.val + p.val, h⟩ a ch) := by
  obtain ⟨⟨e0, e1, e2⟩, -⟩ := index_maps t
  unfold iblk1
  rw [View.read_apply]
  show V c main_v44 _ = V c main_v44 _
  congr 1
  funext d
  apply Fin.ext
  match d with
  | ⟨0, _⟩ => show win1_0.index t 0 * 256 + 1 * p.val = 256 * t.val + p.val; rw [e0]; omega
  | ⟨1, _⟩ => show win1_0.index t 1 * 16 + 1 * a.val = a.val; rw [e1]; omega
  | ⟨2, _⟩ => show win1_0.index t 2 * 128 + 1 * ch.val = ch.val; rw [e2]; omega

/-- The block of feature rows at point `t` is graphs `256 t … 256 t + 255` of the array. -/
theorem feat_block_apply (c : Dev nD) (t : Fin cfg1.N) (p : Fin 256) (a : Fin 16) (ch : Fin 128) (h : 256 * t.val + p.val < 8192) :
    (iblk1 (F := Ideal) V c 1 t : Vec Ideal S256x16x128 .f32) (ix3 (n0 := 256) (n1 := 16) (n2 := 128) p a ch)
      = (V c main_v45 : S8192x16x128.Idx → Elt Ideal .f32) (ix3 (n0 := 8192) (n1 := 16) (n2 := 128) ⟨256 * t.val + p.val, h⟩ a ch) := by
  obtain ⟨-, ⟨e0, e1, e2⟩, -⟩ := index_maps t
  unfold iblk1
  rw [View.read_apply]
  show V c main_v45 _ = V c main_v45 _
  congr 1
  funext d
  apply Fin.ext
  match d with
  | ⟨0, _⟩ => show win1_1.index t 0 * 256 + 1 * p.val = 256 * t.val + p.val; rw [e0]; omega
  | ⟨1, _⟩ => show win1_1.index t 1 * 16 + 1 * a.val = a.val; rw [e1]; omega
  | ⟨2, _⟩ => show win1_1.index t 2 * 128 + 1 * ch.val = ch.val; rw [e2]; omega

/-- The block of the convolution bias is the whole array at every point. -/
theorem bias_block_eq (c : Dev nD) (t : Fin cfg1.N) :
    (iblk1 (F := Ideal) V c 2 t : Vec Ideal S1x1x128 .f32) = (V c main_v46 : S1x1x128.Idx → Elt Ideal .f32) := by
  obtain ⟨-, -, ⟨e0, e1, e2⟩, -⟩ := index_maps t
  funext x
  unfold iblk1
  rw [View.read_apply]
  show V c main_v46 _ = V c main_v46 _
  congr 1
  funext d
  apply Fin.ext
  match d with
  | ⟨0, _⟩ => show win1_2.index t 0 * 1 + 1 * (x 0).val = (x 0).val; rw [e0]; omega
  | ⟨1, _⟩ => show win1_2.index t 1 * 1 + 1 * (x 1).val = (x 1).val; rw [e1]; omega
  | ⟨2, _⟩ => show win1_2.index t 2 * 128 + 1 * (x 2).val = (x 2).val; rw [e2]; omega

/-- The block of the first layer's weights is the whole array at every point. -/
theorem w1_block_eq (c : Dev nD) (t : Fin cfg1.N) :
    (iblk1 (F := Ideal) V c 3 t : Vec Ideal S128x256 .f32) = (V c main_arg4 : S128x256.Idx → Elt Ideal .f32) := by
  obtain ⟨-, -, -, ⟨e0, e1⟩, -⟩ := index_maps t
  funext x
  unfold iblk1
  rw [View.read_apply]
  show V c main_arg4 _ = V c main_arg4 _
  congr 1
  funext d
  apply Fin.ext
  match d with
  | ⟨0, _⟩ => show win1_3.index t 0 * 128 + 1 * (x 0).val = (x 0).val; rw [e0]; omega
  | ⟨1, _⟩ => show win1_3.index t 1 * 256 + 1 * (x 1).val = (x 1).val; rw [e1]; omega

/-- The block of the first layer's bias is the whole array at every point. -/
theorem b1_block_eq (c : Dev nD) (t : Fin cfg1.N) :
    (iblk1 (F := Ideal) V c 4 t : Vec Ideal S1x256 .f32) = (V c main_v47 : S1x256.Idx → Elt Ideal .f32) := by
  obtain ⟨-, -, -, -, ⟨e0, e1⟩, -⟩ := index_maps t
  funext x
  unfold iblk1
  rw [View.read_apply]
  show V c main_v47 _ = V c main_v47 _
  congr 1
  funext d
  apply Fin.ext
  match d with
  | ⟨0, _⟩ => show win1_4.index t 0 * 1 + 1 * (x 0).val = (x 0).val; rw [e0]; omega
  | ⟨1, _⟩ => show win1_4.index t 1 * 256 + 1 * (x 1).val = (x 1).val; rw [e1]; omega

/-- The block of the second layer's weights is the whole array at every point. -/
theorem w2_block_eq (c : Dev nD) (t : Fin cfg1.N) :
    (iblk1 (F := Ideal) V c 5 t : Vec Ideal S256x256 .f32) = (V c main_arg6 : S256x256.Idx → Elt Ideal .f32) := by
  obtain ⟨-, -, -, -, -, ⟨e0, e1⟩, -⟩ := index_maps t
  funext x
  unfold iblk1
  rw [View.read_apply]
  show V c main_arg6 _ = V c main_arg6 _
  congr 1
  funext d
  apply Fin.ext
  match d with
  | ⟨0, _⟩ => show win1_5.index t 0 * 256 + 1 * (x 0).val = (x 0).val; rw [e0]; omega
  | ⟨1, _⟩ => show win1_5.index t 1 * 256 + 1 * (x 1).val = (x 1).val; rw [e1]; omega

/-- The block of the second layer's bias is the whole array at every point. -/
theorem b2_block_eq (c : Dev nD) (t : Fin cfg1.N) :
    (iblk1 (F := Ideal) V c 6 t : Vec Ideal S1x256 .f32) = (V c main_v48 : S1x256.Idx → Elt Ideal .f32) := by
  obtain ⟨-, -, -, -, -, -, ⟨e0, e1⟩, -⟩ := index_maps t
  funext x
  unfold iblk1
  rw [View.read_apply]
  show V c main_v48 _ = V c main_v48 _
  congr 1
  funext d
  apply Fin.ext
  match d with
  | ⟨0, _⟩ => show win1_6.index t 0 * 1 + 1 * (x 0).val = (x 0).val; rw [e0]; omega
  | ⟨1, _⟩ => show win1_6.index t 1 * 256 + 1 * (x 1).val = (x 1).val; rw [e1]; omega

/-- The block of the last layer's weights is the whole array at every point. -/
theorem w3_block_eq (c : Dev nD) (t : Fin cfg1.N) :
    (iblk1 (F := Ideal) V c 7 t : Vec Ideal S256x1 .f32) = (V c main_arg8 : S256x1.Idx → Elt Ideal .f32) := by
  obtain ⟨-, -, -, -, -, -, -, ⟨e0, e1⟩, -⟩ := index_maps t
  funext x
  unfold iblk1
  rw [View.read_apply]
  show V c main_arg8 _ = V c main_arg8 _
  congr 1
  funext d
  apply Fin.ext
  match d with
  | ⟨0, _⟩ => show win1_7.index t 0 * 256 + 1 * (x 0).val = (x 0).val; rw [e0]; omega
  | ⟨1, _⟩ => show win1_7.index t 1 * 1 + 1 * (x 1).val = (x 1).val; rw [e1]; omega

/-- The block of the last layer's bias is the whole array at every point. -/
theorem b3_block_eq (c : Dev nD) (t : Fin cfg1.N) :
    (iblk1 (F := Ideal) V c 8 t : Vec Ideal S1x1 .f32) = (V c main_v49 : S1x1.Idx → Elt Ideal .f32) := by
  obtain ⟨-, -, -, -, -, -, -, -, ⟨e0, e1⟩, -⟩ := index_maps t
  funext x
  unfold iblk1
  rw [View.read_apply]
  show V c main_v49 _ = V c main_v49 _
  congr 1
  funext d
  apply Fin.ext
  match d with
  | ⟨0, _⟩ => show win1_8.index t 0 * 1 + 1 * (x 0).val = (x 0).val; rw [e0]; omega
  | ⟨1, _⟩ => show win1_8.index t 1 * 1 + 1 * (x 1).val = (x 1).val; rw [e1]; omega

/-- Row `y` of what a block stores is the head of graph `256 t + y`, when the two big blocks are graphs
    `256 t … 256 t + 255` of their arrays and the seven small blocks are their arrays. -/
theorem stored_row_eq_head (x0 x1 : Vec Ideal S256x16x128 .f32) (x2 : Vec Ideal S1x1x128 .f32) (x3 : Vec Ideal S128x256 .f32)
    (x4 : Vec Ideal S1x256 .f32) (x5 : Vec Ideal S256x256 .f32) (x6 : Vec Ideal S1x256 .f32) (x7 : Vec Ideal S256x1 .f32)
    (x8 : Vec Ideal S1x1 .f32)
    (g3 s3 : S8192x16x128.Idx → EReal) (bg3 : S1x1x128.Idx → EReal) (w1 : S128x256.Idx → EReal) (b1r : S1x256.Idx → EReal)
    (w2 : S256x256.Idx → EReal) (b2r : S1x256.Idx → EReal) (w3 : S256x1.Idx → EReal) (b3r : S1x1.Idx → EReal)
    (t : Nat) (ht : t < 32)
    (h0 : ∀ (p : Fin 256) (a : Fin 16) (ch : Fin 128), x0 (ix3 (n0 := 256) (n1 := 16) (n2 := 128) p a ch)
        = g3 (ix3 (n0 := 8192) (n1 := 16) (n2 := 128) ⟨256 * t + p.val, by have := p.isLt; omega⟩ a ch))
    (h1 : ∀ (p : Fin 256) (a : Fin 16) (ch : Fin 128), x1 (ix3 (n0 := 256) (n1 := 16) (n2 := 128) p a ch)
        = s3 (ix3 (n0 := 8192) (n1 := 16) (n2 := 128) ⟨256 * t + p.val, by have := p.isLt; omega⟩ a ch))
    (h2 : x2 = bg3) (h3 : x3 = w1) (h4 : x4 = b1r) (h5 : x5 = w2) (h6 : x6 = b2r) (h7 : x7 = w3) (h8 : x8 = b3r)
    (y : S256x1.Idx) (i : S8192x1.Idx) (hi : (i 0).val = 256 * t + (y 0).val) :
    out1_9 (F := Ideal) x0 x1 x2 x3 x4 x5 x6 x7 x8 y
      = GcnPool.headOfWindows g3 s3 bg3 w1 b1r w2 b2r w3 b3r i := by
  subst h2 h3 h4 h5 h6 h7 h8
  obtain ⟨p, hp, hy⟩ : ∃ p : Fin 256, p.val = (y 0).val ∧ y = ix2 (n0 := 256) (n1 := 1) p 0 := by
    refine ⟨⟨(y 0).val, (y 0).isLt⟩, rfl, ?_⟩
    funext d; apply Fin.ext
    match d with
    | ⟨0, _⟩ => rfl
    | ⟨1, _⟩ => show (y 1).val = 0; have : (y 1).val < 1 := (y 1).isLt; omega
  subst hy
  rw [out1_9_apply]
  unfold GcnPool.headOfWindows
  have hrow : (⟨(i 0).val, (i 0).isLt⟩ : Fin 8192) = ⟨256 * t + p.val, by have := p.isLt; omega⟩ :=
    Fin.ext (by show (i 0).val = 256 * t + p.val; omega)
  rw [hrow]
  congr 1
  · funext a ch; exact h0 p a ch
  · funext a ch; exact h1 p a ch

/-- The head of the arrays the launch found. -/
abbrev headFound (c : Dev nD) : S8192x1.Idx → EReal :=
  GcnPool.headOfWindows (V c main_v44) (V c main_v45) (V c main_v46) (V c main_arg4) (V c main_v47) (V c main_arg6)
    (V c main_v48) (V c main_arg8) (V c main_v49)

/-- What point `t` writes back is block `t` of the head of the arrays. -/
theorem written_back_eq (c : Dev nD) (t : Fin cfg1.N) :
    (dat1 (F := Ideal) V c).flushed 9 t = ((cfg1.win 9).blk t).view.read (Elt Ideal) (headFound V c) := by
  show (cfg1.win 9).cut (grid1.coords t) ((dat1 V c).after 9 t) = _
  rw [after1_9]
  have hN : t.val < 32 := lt_of_lt_of_eq t.isLt N_1
  obtain ⟨-, -, -, -, -, -, -, -, -, ⟨e0, e1⟩⟩ := index_maps t
  funext y
  show out1_9 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) y = headFound V c (((cfg1.win 9).blk t).view.emb y)
  refine stored_row_eq_head (iblk1 V c 0 t) (iblk1 V c 1 t) (iblk1 V c 2 t) (iblk1 V c 3 t) (iblk1 V c 4 t) (iblk1 V c 5 t)
        (iblk1 V c 6 t) (iblk1 V c 7 t) (iblk1 V c 8 t) (V c main_v44) (V c main_v45) (V c main_v46) (V c main_arg4) (V c main_v47)
        (V c main_arg6) (V c main_v48) (V c main_arg8) (V c main_v49) t.val hN
        (fun p a ch => conv_block_apply V c t p a ch _) (fun p a ch => feat_block_apply V c t p a ch _)
        (bias_block_eq V c t) (w1_block_eq V c t) (b1_block_eq V c t) (w2_block_eq V c t) (b2_block_eq V c t)
        (w3_block_eq V c t) (b3_block_eq V c t)
        y (((cfg1.win 9).blk t).view.emb y) ?_
  show win1_9.index t 0 * 256 + 1 * (y 0).val = 256 * t.val + (y 0).val
  rw [e0]; omega

/-- An index of the output array is in point `t`'s block iff each coordinate is in the block's range on its axis. -/
theorem mem_graph_block (t : Fin cfg1.N) (i : S8192x1.Idx) :
    i ∈ ((cfg1.win 9).blk t).view.set ↔ ∀ a : Fin 2, win1_9.index t a * S256x1.size a ≤ (i a).val ∧ (i a).val < win1_9.index t a * S256x1.size a + S256x1.size a := by
  show i ∈ ((View.whole main_v50).slice (win1_9.rect t)).set ↔ _
  rw [View.set_slice_whole, Rect.mem_set_unit]
  exact Iff.rfl

/-- Graph `r` is in the block of point `r / 256`: the 32 blocks tile the 8192 graphs. -/
theorem graphs_covered (i : S8192x1.Idx) : ∃ t : Fin cfg1.N, (cfg1.win 9).flush t = true ∧ i ∈ ((cfg1.win 9).blk t).view.set := by
  have hi0 : (i 0).val < 8192 := (i 0).isLt
  have hi1 : (i 1).val < 1 := (i 1).isLt
  have hq : (i 0).val / 256 < cfg1.N := by rw [show cfg1.N = 32 from N_1]; omega
  obtain ⟨-, -, -, -, -, -, -, -, -, ⟨e0, e1⟩⟩ := index_maps ⟨(i 0).val / 256, hq⟩
  refine ⟨⟨(i 0).val / 256, hq⟩, flush1_9 _, ?_⟩
  rw [mem_graph_block]
  intro a
  match a with
  | ⟨0, _⟩ =>
    show win1_9.index ⟨(i 0).val / 256, hq⟩ 0 * 256 ≤ (i 0).val ∧ (i 0).val < win1_9.index ⟨(i 0).val / 256, hq⟩ 0 * 256 + 256
    rw [e0]; show (i 0).val / 256 * 256 ≤ (i 0).val ∧ (i 0).val < (i 0).val / 256 * 256 + 256; omega
  | ⟨1, _⟩ =>
    show win1_9.index ⟨(i 0).val / 256, hq⟩ 1 * 1 ≤ (i 1).val ∧ (i 1).val < win1_9.index ⟨(i 0).val / 256, hq⟩ 1 * 1 + 1
    rw [e1]; omega

/-- The output array after the launch, from the arrays the launch found. -/
theorem arr1 (c : Dev nD) :
    (dat1 (F := Ideal) V c).arrAt 9 cfg1.N
      = GcnPool.headOfWindows (V c main_v44) (V c main_v45) (V c main_v46) (V c main_arg4) (V c main_v47) (V c main_arg6)
          (V c main_v48) (V c main_arg8) (V c main_v49) :=
  (dat1 (F := Ideal) V c).arrAt_eq_of_cover 9 (headFound V c) (fun t _ => written_back_eq V c t) graphs_covered

end Cert.KernelIdeal.Region1

end
-- ==== Proof.Mid.lean ====
/-
  The part of the graph convolution both programs run on the host, word for word: from the dense map `xw` and the edge
  list, gather the source rows, scale each by the symmetric degree normalisation of its edge, and scatter-add into the
  target rows (self-loops appended to the edge list). It is carried as ONE function `mid` of `xw` and the edge list and is
  never opened: the two programs differ only in how `xw` is made and in what is done with `mid`'s result.
  The reference's dense map is `GcnPool.xw`: a matrix product read at an index.
-/
import proofs.«119075_j1752346657369_1_alg».proof.Proof.RefRead
import proofs.«119075_j1752346657369_1_alg».proof.Proof.Spec
import proofs.«119075_j1752346657369_1_alg».proof.Proof.LibPlainDot

noncomputable section

namespace Cert.Bridge

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Gather the rows of `xw` at the edges' sources, scale by the edges' normalisation, scatter-add at the targets. -/
def mid (xw : (⟨S131072x128, .f32⟩ : BufTy).Contents (Elt F)) (e : (⟨S2x524288, .i32⟩ : BufTy).Contents (Elt F)) :
    (⟨S131072x128, .f32⟩ : BufTy).Contents (Elt F) :=
  Host.scatterAdd scatter_S131072x128_S655360x1_S655360x128_1_0_0_1 (val_main_v41 (F := F)) (val_main_v42 (F := F) e)
    (mulf (Host.gather gather_S131072x128_S655360x1_S655360x128_1_0_n_n_0_1_1128 xw (val_main_v36 (F := F) e)) (val_main_v39 (F := F) e))

/-- The reference's convolution (before its bias) is `mid` of its dense map. -/
theorem val_main_v43_eq (x0 : (⟨S131072x128, .f32⟩ : BufTy).Contents (Elt F)) (x1 : (⟨S2x524288, .i32⟩ : BufTy).Contents (Elt F))
    (x2 : (⟨S128x128, .f32⟩ : BufTy).Contents (Elt F)) :
    val_main_v43 (F := F) x0 x1 x2 = mid (val_main_v30 (F := F) x0 x2) x1 := rfl

/-- The reference's dense map, on the extended reals, is the matrix product. -/
theorem val_main_v30_eq (x0 : (⟨S131072x128, .f32⟩ : BufTy).Contents (Elt Ideal)) (x2 : (⟨S128x128, .f32⟩ : BufTy).Contents (Elt Ideal)) :
    val_main_v30 (F := Ideal) x0 x2 = GcnPool.xw x0 x2 := by
  funext i
  unfold val_main_v30 GcnPool.xw
  simp only [Host.dotGeneral]
  exact PlainDot.dotGeneral_apply 131072 128 128 _ x0 x2 i

end Cert.Bridge

end
-- ==== Proof.Glue.lean ====
/-
  The two layouts of the head's inputs. The fused kernel is handed the node arrays re-laid as 8192 graphs × 16 nodes ×
  128 channels and the bias vectors as one-row arrays, and its 8192 × 1 result is re-laid as a vector. A row-major
  re-laying moves no element: node `16 b + a` is entry `(b, a)`, a bias's entry `j` is entry `(0, j)`. So the head over
  the re-laid arrays, re-laid back, is the head over the arrays as passed.
-/
import proofs.«119075_j1752346657369_1_alg».proof.Proof.Spec
import Idealize.ShloMosaic.Lib.Pipeline.Value

noncomputable section

open scoped BigOperators

namespace GcnPool

open Idealize.ShloMosaic Idealize.ShloMosaic.ValueIdx

/-- Entry `(b, a, c)` of the node array re-laid by graphs is entry `(16 b + a, c)` of the array as passed. -/
theorem relaid_nodes_apply (g : (⟨2, ![131072, 128]⟩ : Shape).Idx → EReal)
    (hn : (⟨2, ![131072, 128]⟩ : Shape).ShapeCasts ⟨3, ![8192, 16, 128]⟩) (b : Fin 8192) (a : Fin 16) (c : Fin 128) :
    shapeCast ⟨3, ![8192, 16, 128]⟩ g hn (ix3 (n0 := 8192) (n1 := 16) (n2 := 128) b a c)
      = g (ix2 (n0 := 131072) (n1 := 128) (node b a) c) :=
  shapeCast_apply g hn _ _ (by
    rewrite [Shape.rowMajor_val_two, Shape.rowMajor_val_three]
    show (b.val * 16 + a.val) * 128 + c.val = (b.val * 16 + a.val) * 128 + c.val
    rfl)

/-- Entry `(0, 0, c)` of a 128-vector re-laid as a `1 × 1 × 128` array is the vector's entry `c`. -/
theorem relaid_bias3_apply (bg : (⟨1, ![128]⟩ : Shape).Idx → EReal)
    (hbg : (⟨1, ![128]⟩ : Shape).ShapeCasts ⟨3, ![1, 1, 128]⟩) (c : Fin 128) :
    shapeCast ⟨3, ![1, 1, 128]⟩ bg hbg (ix3 (n0 := 1) (n1 := 1) (n2 := 128) 0 0 c) = bg (ix1 (n := 128) c) :=
  shapeCast_apply bg hbg _ _ (by
    rewrite [Shape.rowMajor_val_one, Shape.rowMajor_val_three]
    show c.val = (0 * 1 + 0) * 128 + c.val
    omega)

/-- Entry `(0, j)` of a 256-vector re-laid as a one-row array is the vector's entry `j`. -/
theorem relaid_bias2_apply (b : (⟨1, ![256]⟩ : Shape).Idx → EReal)
    (hb : (⟨1, ![256]⟩ : Shape).ShapeCasts ⟨2, ![1, 256]⟩) (j : Fin 256) :
    shapeCast ⟨2, ![1, 256]⟩ b hb (ix2 (n0 := 1) (n1 := 256) 0 j) = b (ix1 (n := 256) j) :=
  shapeCast_apply b hb _ _ (by
    rewrite [Shape.rowMajor_val_one, Shape.rowMajor_val_two]
    show j.val = 0 * 256 + j.val
    omega)

/-- The one entry of a 1-vector re-laid as a `1 × 1` array. -/
theorem relaid_scalar_apply (b3 : (⟨1, ![1]⟩ : Shape).Idx → EReal)
    (hb3 : (⟨1, ![1]⟩ : Shape).ShapeCasts ⟨2, ![1, 1]⟩) :
    shapeCast ⟨2, ![1, 1]⟩ b3 hb3 (ix2 (n0 := 1) (n1 := 1) 0 0) = b3 (ix1 (n := 1) 0) :=
  shapeCast_apply b3 hb3 _ _ (by
    rewrite [Shape.rowMajor_val_one, Shape.rowMajor_val_two]
    show 0 = 0 * 1 + 0
    rfl)

/-- Entry `i` of an `8192 × 1` array re-laid as a vector is the array's entry `(i, 0)`. -/
theorem relaid_out_apply (f : (⟨2, ![8192, 1]⟩ : Shape).Idx → EReal)
    (ho : (⟨2, ![8192, 1]⟩ : Shape).ShapeCasts ⟨1, ![8192]⟩) (i : (⟨1, ![8192]⟩ : Shape).Idx) :
    shapeCast ⟨1, ![8192]⟩ f ho i = f (ix2 (n0 := 8192) (n1 := 1) ⟨(i 0).val, (i 0).isLt⟩ 0) :=
  shapeCast_apply f ho _ _ (by
    rewrite [Shape.rowMajor_val_two, Shape.rowMajor_val_one]
    show (i 0).val * 1 + 0 = (i 0).val
    omega)

theorem head_of_reshaped (g s : (⟨2, ![131072, 128]⟩ : Shape).Idx → EReal) (bg : (⟨1, ![128]⟩ : Shape).Idx → EReal)
    (w1 : (⟨2, ![128, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 1]⟩ : Shape).Idx → EReal) (b3 : (⟨1, ![1]⟩ : Shape).Idx → EReal)
    (hn : (⟨2, ![131072, 128]⟩ : Shape).ShapeCasts ⟨3, ![8192, 16, 128]⟩) (hbg : (⟨1, ![128]⟩ : Shape).ShapeCasts ⟨3, ![1, 1, 128]⟩)
    (hb : (⟨1, ![256]⟩ : Shape).ShapeCasts ⟨2, ![1, 256]⟩) (hb3 : (⟨1, ![1]⟩ : Shape).ShapeCasts ⟨2, ![1, 1]⟩)
    (ho : (⟨2, ![8192, 1]⟩ : Shape).ShapeCasts ⟨1, ![8192]⟩) :
    shapeCast ⟨1, ![8192]⟩ (headOfWindows (shapeCast ⟨3, ![8192, 16, 128]⟩ g hn) (shapeCast ⟨3, ![8192, 16, 128]⟩ s hn)
        (shapeCast ⟨3, ![1, 1, 128]⟩ bg hbg) w1 (shapeCast ⟨2, ![1, 256]⟩ b1 hb) w2 (shapeCast ⟨2, ![1, 256]⟩ b2 hb) w3
        (shapeCast ⟨2, ![1, 1]⟩ b3 hb3)) ho
      = head g s bg w1 b1 w2 b2 w3 b3 := by
  funext i
  rw [relaid_out_apply]
  unfold headOfWindows head
  simp only [relaid_nodes_apply, relaid_bias3_apply, relaid_bias2_apply, relaid_scalar_apply]

end GcnPool

end
-- ==== Proof.KernelHost.lean ====
/-
  The kernel program's result as a function of its arguments. Its host side re-lays the arguments for the two
  launches and, between them, runs the shared part of the convolution on the first launch's output. Walking the
  buffer contents back from the return to the launch memory, one boundary at a time:
  the result is the second launch's output re-laid as a vector; that output is the head over the launch's windows
  (`Region1.arr1`); the windows hold re-layings of the arguments and of `mid` applied to the first launch's output and
  the edge list; the first launch's output is `xw state W` (`Region0.arr0`); and a re-laying moves no element
  (`GcnPool.head_of_reshaped`). So the result is `head (mid (xw state W) edges) state bias W1 b1 W2 b2 W3 b3`.
  The edge-list bookkeeping (self-loops appended, negative indices wrapped, the degree normalisation) is the same text
  in both programs; it is identified with the reference's own stages and never opened.
-/
import proofs.«119075_j1752346657369_1_alg».proof.Proof.Gen.KernelIdeal.Frame
import proofs.«119075_j1752346657369_1_alg».proof.Proof.Region0
import proofs.«119075_j1752346657369_1_alg».proof.Proof.Region1
import proofs.«119075_j1752346657369_1_alg».proof.Proof.Mid
import proofs.«119075_j1752346657369_1_alg».proof.Proof.Glue
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-! ## Any float family: the boundaries' contents, buffer by buffer -/

section Generic

variable {F : FTy → Type} [FloatOps F]
variable (m : (ℓ : Loc nD τ sig) → Buf (Elt F) ℓ) (ρ : Dev nD → PrngReg)

/-- The result is the second launch's output, re-laid. -/
theorem W7_v51 (c : Dev nD) :
    W7 m ρ c (Proc.devRef .tc main_v51) = shapeCast _ (W6 m ρ c (Proc.devRef .tc main_v50)) shapeCasts_S8192x1_S8192 := by
  dsimp only [W7, hostOps2]
  after_results
  rfl

/-- The second launch's output array is what its write-backs leave. -/
theorem W6_v50 (c : Dev nD) : W6 m ρ c (Proc.devRef .tc main_v50) = (dat1 (V5 m ρ) c).arrAt 9 cfg1.N := W6_arr m ρ c 9

/-! ### Before the first launch: the arguments untouched, the edge bookkeeping as the reference's stages -/

theorem W3_arg0 (c : Dev nD) : W3 m ρ c (Proc.devRef .tc main_arg0) = m ((c.tc : Thread nD τ).loc main_arg0) := by
  dsimp only [W3, W2, W1, hostOps0_2, hostOps0_1, hostOps0]
  after_results
theorem W3_arg2 (c : Dev nD) : W3 m ρ c (Proc.devRef .tc main_arg2) = m ((c.tc : Thread nD τ).loc main_arg2) := by
  dsimp only [W3, W2, W1, hostOps0_2, hostOps0_1, hostOps0]
  after_results
theorem W3_arg3 (c : Dev nD) : W3 m ρ c (Proc.devRef .tc main_arg3) = m ((c.tc : Thread nD τ).loc main_arg3) := by
  dsimp only [W3, W2, W1, hostOps0_2, hostOps0_1, hostOps0]
  after_results
theorem W3_arg4 (c : Dev nD) : W3 m ρ c (Proc.devRef .tc main_arg4) = m ((c.tc : Thread nD τ).loc main_arg4) := by
  dsimp only [W3, W2, W1, hostOps0_2, hostOps0_1, hostOps0]
  after_results
theorem W3_arg5 (c : Dev nD) : W3 m ρ c (Proc.devRef .tc main_arg5) = m ((c.tc : Thread nD τ).loc main_arg5) := by
  dsimp only [W3, W2, W1, hostOps0_2, hostOps0_1, hostOps0]
  after_results
theorem W3_arg6 (c : Dev nD) : W3 m ρ c (Proc.devRef .tc main_arg6) = m ((c.tc : Thread nD τ).loc main_arg6) := by
  dsimp only [W3, W2, W1, hostOps0_2, hostOps0_1, hostOps0]
  after_results
theorem W3_arg7 (c : Dev nD) : W3 m ρ c (Proc.devRef .tc main_arg7) = m ((c.tc : Thread nD τ).loc main_arg7) := by
  dsimp only [W3, W2, W1, hostOps0_2, hostOps0_1, hostOps0]
  after_results
theorem W3_arg8 (c : Dev nD) : W3 m ρ c (Proc.devRef .tc main_arg8) = m ((c.tc : Thread nD τ).loc main_arg8) := by
  dsimp only [W3, W2, W1, hostOps0_2, hostOps0_1, hostOps0]
  after_results
theorem W3_arg9 (c : Dev nD) : W3 m ρ c (Proc.devRef .tc main_arg9) = m ((c.tc : Thread nD τ).loc main_arg9) := by
  dsimp only [W3, W2, W1, hostOps0_2, hostOps0_1, hostOps0]
  after_results
/-- The source nodes, self-loops appended: the reference's stage of the same name, of the same edge list. -/
theorem W3_v3 (c : Dev nD) :
    W3 m ρ c (Proc.devRef .tc main_v3) = Cert.ReferenceIdeal.ReadP.val_main_v3 (F := F) (m ((c.tc : Thread nD τ).loc main_arg1)) := by
  dsimp only [W3, W2, W1, hostOps0_2, hostOps0_1, hostOps0]
  after_results
  rfl
/-- The target nodes, self-loops appended: the reference's stage of the same name, of the same edge list. -/
theorem W3_v6 (c : Dev nD) :
    W3 m ρ c (Proc.devRef .tc main_v6) = Cert.ReferenceIdeal.ReadP.val_main_v6 (F := F) (m ((c.tc : Thread nD τ).loc main_arg1)) := by
  dsimp only [W3, W2, W1, hostOps0_2, hostOps0_1, hostOps0]
  after_results
  rfl
set_option maxHeartbeats 4000000 in
/-- The edges' symmetric degree normalisation: the reference's stage of the same name, of the same edge list. -/
theorem W3_v29 (c : Dev nD) :
    W3 m ρ c (Proc.devRef .tc main_v29) = Cert.ReferenceIdeal.ReadP.val_main_v29 (F := F) (m ((c.tc : Thread nD τ).loc main_arg1)) := by
  dsimp only [W3, W2, W1, hostOps0_2, hostOps0_1, hostOps0]
  after_results_simp
  rfl

/-! ### After the first launch: everything but its output as before -/

theorem W4_arg0 (c : Dev nD) : W4 m ρ c (Proc.devRef .tc main_arg0) = m ((c.tc : Thread nD τ).loc main_arg0) :=
  ((W4_arr m ρ c 0).trans (((dat0 (V3 m ρ) c).arrAt_in 0 rfl _).trans (A_eq0 (V3 m ρ) c 0))).trans (W3_arg0 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_arg8 (c : Dev nD) : W4 m ρ c (Proc.devRef .tc main_arg8) = m ((c.tc : Thread nD τ).loc main_arg8) :=
  (W4_of_ne m ρ c main_arg8 (by decide)).trans (W3_arg8 m ρ c)
theorem W4_arg9 (c : Dev nD) : W4 m ρ c (Proc.devRef .tc main_arg9) = m ((c.tc : Thread nD τ).loc main_arg9) :=
  (W4_of_ne m ρ c main_arg9 (by decide)).trans (W3_arg9 m ρ c)
theorem W4_v3 (c : Dev nD) :
    W4 m ρ c (Proc.devRef .tc main_v3) = Cert.ReferenceIdeal.ReadP.val_main_v3 (F := F) (m ((c.tc : Thread nD τ).loc main_arg1)) :=
  (W4_of_ne m ρ c main_v3 (by decide)).trans (W3_v3 m ρ c)
theorem W4_v6 (c : Dev nD) :
    W4 m ρ c (Proc.devRef .tc main_v6) = Cert.ReferenceIdeal.ReadP.val_main_v6 (F := F) (m ((c.tc : Thread nD τ).loc main_arg1)) :=
  (W4_of_ne m ρ c main_v6 (by decide)).trans (W3_v6 m ρ c)
theorem W4_v29 (c : Dev nD) :
    W4 m ρ c (Proc.devRef .tc main_v29) = Cert.ReferenceIdeal.ReadP.val_main_v29 (F := F) (m ((c.tc : Thread nD τ).loc main_arg1)) :=
  (W4_of_ne m ρ c main_v29 (by decide)).trans (W3_v29 m ρ c)

/-! ### Before the second launch: its nine input windows -/

set_option maxHeartbeats 4000000 in
/-- The convolution's result, re-laid: the shared host part applied to the first launch's output and the edge list. -/
theorem W5_v44 (c : Dev nD) :
    W5 m ρ c (Proc.devRef .tc main_v44)
      = shapeCast _ (Cert.Bridge.mid (F := F) (W4 m ρ c (Proc.devRef .tc main_v30)) (m ((c.tc : Thread nD τ).loc main_arg1)))
          shapeCasts_S131072x128_S8192x16x128 := by
  dsimp only [W5, hostOps1]
  after_results_simp
  rw [W4_v3 m ρ c, W4_v6 m ρ c, W4_v29 m ρ c]
  rfl
theorem W5_v45 (c : Dev nD) :
    W5 m ρ c (Proc.devRef .tc main_v45) = shapeCast _ (m ((c.tc : Thread nD τ).loc main_arg0)) shapeCasts_S131072x128_S8192x16x128 := by
  dsimp only [W5, hostOps1]
  after_results
  rw [W4_arg0 m ρ c]
  rfl
theorem W5_v46 (c : Dev nD) :
    W5 m ρ c (Proc.devRef .tc main_v46) = shapeCast _ (m ((c.tc : Thread nD τ).loc main_arg3)) shapeCasts_S128_S1x1x128 := by
  dsimp only [W5, hostOps1]
  after_results
  rw [W4_arg3 m ρ c]
  rfl
theorem W5_v47 (c : Dev nD) :
    W5 m ρ c (Proc.devRef .tc main_v47) = shapeCast _ (m ((c.tc : Thread nD τ).loc main_arg5)) shapeCasts_S256_S1x256 := by
  dsimp only [W5, hostOps1]
  after_results
  rw [W4_arg5 m ρ c]
  rfl
theorem W5_v48 (c : Dev nD) :
    W5 m ρ c (Proc.devRef .tc main_v48) = shapeCast _ (m ((c.tc : Thread nD τ).loc main_arg7)) shapeCasts_S256_S1x256 := by
  dsimp only [W5, hostOps1]
  after_results
  rw [W4_arg7 m ρ c]
  rfl
theorem W5_v49 (c : Dev nD) :
    W5 m ρ c (Proc.devRef .tc main_v49) = shapeCast _ (m ((c.tc : Thread nD τ).loc main_arg9)) shapeCasts_S1_S1x1 := by
  dsimp only [W5, hostOps1]
  after_results
  rw [W4_arg9 m ρ c]
  rfl
theorem W5_arg4 (c : Dev nD) : W5 m ρ c (Proc.devRef .tc main_arg4) = m ((c.tc : Thread nD τ).loc main_arg4) := by
  dsimp only [W5, hostOps1]
  after_results
  exact W4_arg4 m ρ c
theorem W5_arg6 (c : Dev nD) : W5 m ρ c (Proc.devRef .tc main_arg6) = m ((c.tc : Thread nD τ).loc main_arg6) := by
  dsimp only [W5, hostOps1]
  after_results
  exact W4_arg6 m ρ c
theorem W5_arg8 (c : Dev nD) : W5 m ρ c (Proc.devRef .tc main_arg8) = m ((c.tc : Thread nD τ).loc main_arg8) := by
  dsimp only [W5, hostOps1]
  after_results
  exact W4_arg8 m ρ c

end Generic

/-! ## On the extended reals: the two launches' outputs, and the result -/

variable (m : (ℓ : Loc nD τ sig) → Buf (Elt Ideal) ℓ) (ρ : Dev nD → PrngReg)

/-- The first launch leaves the dense map of the features and the convolution's weight. -/
theorem W4_v30 (c : Dev nD) :
    W4 (F := Ideal) m ρ c (Proc.devRef .tc main_v30)
      = GcnPool.xw (m ((c.tc : Thread nD τ).loc main_arg0)) (m ((c.tc : Thread nD τ).loc main_arg2)) := by
  refine ((W4_arr m ρ c 2).trans (Cert.KernelIdeal.Region0.arr0 (V3 m ρ) c)).trans ?_
  show GcnPool.xw (W3 m ρ c (Proc.devRef .tc main_arg0)) (W3 m ρ c (Proc.devRef .tc main_arg2)) = _
  rw [W3_arg0 m ρ c, W3_arg2 m ρ c]

theorem kernel_value (c : Dev nD) :
    W7 (F := Ideal) m ρ c (Proc.devRef .tc main_v51)
      = GcnPool.head (Cert.Bridge.mid (GcnPool.xw (m ((c.tc : Thread nD τ).loc main_arg0)) (m ((c.tc : Thread nD τ).loc main_arg2)))
            (m ((c.tc : Thread nD τ).loc main_arg1)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  rw [W7_v51 m ρ c, W6_v50 m ρ c, Cert.KernelIdeal.Region1.arr1 (V5 m ρ) c]
  show shapeCast _ (GcnPool.headOfWindows (W5 m ρ c (Proc.devRef .tc main_v44)) (W5 m ρ c (Proc.devRef .tc main_v45))
      (W5 m ρ c (Proc.devRef .tc main_v46)) (W5 m ρ c (Proc.devRef .tc main_arg4)) (W5 m ρ c (Proc.devRef .tc main_v47))
      (W5 m ρ c (Proc.devRef .tc main_arg6)) (W5 m ρ c (Proc.devRef .tc main_v48)) (W5 m ρ c (Proc.devRef .tc main_arg8))
      (W5 m ρ c (Proc.devRef .tc main_v49))) shapeCasts_S8192x1_S8192 = _
  rw [W5_v44 m ρ c, W5_v45 m ρ c, W5_v46 m ρ c, W5_arg4 m ρ c, W5_v47 m ρ c, W5_arg6 m ρ c, W5_v48 m ρ c, W5_arg8 m ρ c,
    W5_v49 m ρ c, W4_v30 m ρ c]
  exact GcnPool.head_of_reshaped _ _ _ _ _ _ _ _ _ _ _ _ _ _

end Cert.KernelIdeal.HostValue

end
-- ==== Proof.RefTail.lean ====
/-
  The reference after its convolution: bias, clip at zero, add the features, re-lay as graphs × nodes × channels, sum
  over the nodes, three layers — read one operation at a time at an index, it is `GcnPool.head` of the convolution's
  result and the arguments. The host's sum starts from a zero that is added in, and each clip is a maximum with a
  splat zero: both are the extended real `0`.
-/
import proofs.«119075_j1752346657369_1_alg».proof.Proof.RefRead
import proofs.«119075_j1752346657369_1_alg».proof.Proof.Spec

set_option maxRecDepth 16384

noncomputable section

namespace Cert.Bridge

open Cert.ReferenceIdeal Cert.ReferenceIdeal.Gen Cert.ReferenceIdeal.ReadP
open Idealize.ShloMosaic Idealize.ShloMosaic.TcCoe Idealize.ShloMosaic.ValueIdx Idealize.SL.Sem
open scoped BigOperators

/-- After the convolution, at node `n` and channel `c`: add the bias, clip at zero, add the node's own feature. -/
theorem v48_at (x0 : (⟨S131072x128, .f32⟩ : BufTy).Contents (Elt Ideal)) (x1 : (⟨S2x524288, .i32⟩ : BufTy).Contents (Elt Ideal))
    (x2 : (⟨S128x128, .f32⟩ : BufTy).Contents (Elt Ideal)) (x3 : (⟨S128, .f32⟩ : BufTy).Contents (Elt Ideal))
    (n : Fin 131072) (c : Fin 128) :
    val_main_v48 (F := Ideal) x0 x1 x2 x3 (ix2 n c)
      = max (val_main_v43 (F := Ideal) x0 x1 x2 (ix2 n c) + x3 (ix1 c)) 0 + x0 (ix2 n c) := by
  rw [val_main_v48_apply, val_main_v47_apply, val_main_v46_apply, val_main_v45_apply, val_main_v44_apply,
    val_main_call1_v0_apply, val_main_call1_cst_apply]
  simp only [Ideal.addf_def, Ideal.maximumf_def, Ideal.ofBits_def, Ideal.ofBits_zero_f32]
  have e : idx_main_v44 (idx_main_v45 (ix2 n c)) = ix1 c :=
    funext fun a => Fin.ext (by match a with | ⟨0, _⟩ => rfl)
  rw [e]

/-- Entry `(b, a, c)` of the three-axis layout is entry `(16 b + a, c)` of the two-axis one. -/
theorem idx49_at (b : Fin 8192) (a : Fin 16) (c : Fin 128) :
    idx_main_v49 (idx_main_v50 (ix2 b c) a) = ix2 (GcnPool.node b a) c :=
  funext fun d => Fin.ext (by
    have hc := c.isLt
    match d with
    | ⟨0, _⟩ => show ((b.val * 16 + a.val) * 128 + c.val) / 128 = b.val * 16 + a.val; omega
    | ⟨1, _⟩ => show ((b.val * 16 + a.val) * 128 + c.val) % 128 = c.val; omega)

/-- The pooled value of graph `b` at channel `c`: the sum over the graph's 16 nodes. -/
theorem v50_at (x0 : (⟨S131072x128, .f32⟩ : BufTy).Contents (Elt Ideal)) (x1 : (⟨S2x524288, .i32⟩ : BufTy).Contents (Elt Ideal))
    (x2 : (⟨S128x128, .f32⟩ : BufTy).Contents (Elt Ideal)) (x3 : (⟨S128, .f32⟩ : BufTy).Contents (Elt Ideal))
    (b : Fin 8192) (c : Fin 128) :
    val_main_v50 (F := Ideal) x0 x1 x2 x3 (ix2 b c)
      = ∑ a : Fin 16, (max (val_main_v43 (F := Ideal) x0 x1 x2 (ix2 (GcnPool.node b a) c) + x3 (ix1 c)) 0
          + x0 (ix2 (GcnPool.node b a) c)) := by
  rw [val_main_v50_apply, val_main_cst_9_apply]
  simp only [Ideal.ofBits_def, Ideal.ofBits_zero_f32, zero_add]
  refine Finset.sum_congr rfl fun a _ => ?_
  rw [val_main_v49_apply, idx49_at, v48_at]

/-- The first layer at `(b, j)`. -/
theorem v55_at (x0 : (⟨S131072x128, .f32⟩ : BufTy).Contents (Elt Ideal)) (x1 : (⟨S2x524288, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S256, .f32⟩ : BufTy).Contents (Elt Ideal))
    (b : Fin 8192) (j : Fin 256) :
    val_main_v55 (F := Ideal) x0 x1 x2 x3 x4 x5 (ix2 b j)
      = max ((∑ c : Fin 128, val_main_v50 (F := Ideal) x0 x1 x2 x3 (ix2 b c) * x4 (ix2 c j)) + x5 (ix1 j)) 0 := by
  rw [val_main_v55_apply, val_main_v54_apply, val_main_v51_apply, val_main_v53_apply, val_main_v52_apply,
    val_main_call2_v0_apply, val_main_call2_cst_apply]
  simp only [Ideal.addf_def, Ideal.maximumf_def, Ideal.ofBits_def, Ideal.ofBits_zero_f32]
  have e : idx_main_v52 (idx_main_v53 (ix2 b j)) = ix1 j :=
    funext fun a => Fin.ext (by match a with | ⟨0, _⟩ => rfl)
  have el : ∀ c : Fin 128, lidx_main_v51 (ix2 b j) c = ix2 b c := fun c =>
    funext fun a => Fin.ext (by match a with | ⟨0, _⟩ => rfl | ⟨1, _⟩ => rfl)
  have er : ∀ c : Fin 128, ridx_main_v51 (ix2 b j) c = ix2 c j := fun c =>
    funext fun a => Fin.ext (by match a with | ⟨0, _⟩ => rfl | ⟨1, _⟩ => rfl)
  rw [e]
  simp only [el, er]

/-- The second layer at `(b, k)`. -/
theorem v60_at (x0 : (⟨S131072x128, .f32⟩ : BufTy).Contents (Elt Ideal)) (x1 : (⟨S2x524288, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (b : Fin 8192) (k : Fin 256) :
    val_main_v60 (F := Ideal) x0 x1 x2 x3 x4 x5 x6 x7 (ix2 b k)
      = max ((∑ j : Fin 256, val_main_v55 (F := Ideal) x0 x1 x2 x3 x4 x5 (ix2 b j) * x6 (ix2 j k)) + x7 (ix1 k)) 0 := by
  rw [val_main_v60_apply, val_main_v59_apply, val_main_v56_apply, val_main_v58_apply, val_main_v57_apply,
    val_main_call3_v0_apply, val_main_call3_cst_apply]
  simp only [Ideal.addf_def, Ideal.maximumf_def, Ideal.ofBits_def, Ideal.ofBits_zero_f32]
  have e : idx_main_v57 (idx_main_v58 (ix2 b k)) = ix1 k :=
    funext fun a => Fin.ext (by match a with | ⟨0, _⟩ => rfl)
  have el : ∀ j : Fin 256, lidx_main_v56 (ix2 b k) j = ix2 b j := fun j =>
    funext fun a => Fin.ext (by match a with | ⟨0, _⟩ => rfl | ⟨1, _⟩ => rfl)
  have er : ∀ j : Fin 256, ridx_main_v56 (ix2 b k) j = ix2 j k := fun j =>
    funext fun a => Fin.ext (by match a with | ⟨0, _⟩ => rfl | ⟨1, _⟩ => rfl)
  rw [e]
  simp only [el, er]

/-- The last layer at graph `b`. -/
theorem v65_at (x0 : (⟨S131072x128, .f32⟩ : BufTy).Contents (Elt Ideal)) (x1 : (⟨S2x524288, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x1, .f32⟩ : BufTy).Contents (Elt Ideal)) (x9 : (⟨S1, .f32⟩ : BufTy).Contents (Elt Ideal))
    (b : Fin 8192) :
    val_main_v65 (F := Ideal) x0 x1 x2 x3 x4 x5 x6 x7 x8 x9 (ix1 b)
      = (∑ k : Fin 256, val_main_v60 (F := Ideal) x0 x1 x2 x3 x4 x5 x6 x7 (ix2 b k) * x8 (ix2 k 0)) + x9 (ix1 0) := by
  rw [val_main_v65_apply, val_main_v64_apply, val_main_v61_apply, val_main_v63_apply, val_main_v62_apply]
  simp only [Ideal.addf_def]
  have e : idx_main_v62 (idx_main_v63 (idx_main_v65 (ix1 b))) = ix1 0 :=
    funext fun a => Fin.ext (by match a with | ⟨0, _⟩ => rfl)
  have el : ∀ k : Fin 256, lidx_main_v61 (idx_main_v65 (ix1 b)) k = ix2 b k := fun k =>
    funext fun a => Fin.ext (by match a with | ⟨0, _⟩ => exact Nat.div_one _ | ⟨1, _⟩ => rfl)
  have er : ∀ k : Fin 256, ridx_main_v61 (idx_main_v65 (ix1 b)) k = ix2 k 0 := fun k =>
    funext fun a => Fin.ext (by match a with | ⟨0, _⟩ => rfl | ⟨1, _⟩ => rfl)
  rw [e]
  simp only [el, er]

theorem ref_head (x0 : (⟨S131072x128, .f32⟩ : BufTy).Contents (Elt Ideal)) (x1 : (⟨S2x524288, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x1, .f32⟩ : BufTy).Contents (Elt Ideal)) (x9 : (⟨S1, .f32⟩ : BufTy).Contents (Elt Ideal)) :
    val_main_v65 (F := Ideal) x0 x1 x2 x3 x4 x5 x6 x7 x8 x9
      = GcnPool.head (val_main_v43 (F := Ideal) x0 x1 x2) x0 x3 x4 x5 x6 x7 x8 x9 := by
  funext i
  obtain ⟨b, rfl⟩ : ∃ b : Fin 8192, i = ix1 b := ⟨i 0, eq_ix1 i⟩
  rw [v65_at]
  simp only [v60_at, v55_at, v50_at]
  rfl

end Cert.Bridge

end
-- ==== Proof.lean ====
/-
  A graph convolution feeding a pooled three-layer head, two ways. The reference does everything with whole-array
  host operations. The kernel program keeps the irregular part of the convolution (gathering source rows, scaling by
  the symmetric degree normalisation, scatter-adding into target rows) on the host, word for word as the reference has
  it, and replaces the two dense parts by tiled launches: `xw = state · W` over 32 blocks of 4096 rows, and the head —
  bias, clip at zero, add the features, sum each graph's 16 nodes, three affine layers — over 32 blocks of 256 graphs.

  On the extended reals a narrowing to a 16-bit format is the identity, a product into a zero accumulator is the
  plain sum over the contracted coordinate, and a tiling changes nothing: both programs compute
  `GcnPool.head (mid (GcnPool.xw state W) edges) state bias W1 b1 W2 b2 W3 b3`, where `mid` is the shared host part.
  No step distributes a product over a sum, so the inputs' finiteness is never used.

  The three runs: the kernel programs' frames are the generated launch over @main's segments; the idealized kernel's
  run with its result named is the same launch read once more at the result buffer (`RunNamed`), its value
  `HostValue.kernel_value`; the reference's run is its operations' composed term (`ValueP.run`), read one operation
  at a time (`ReadP`, `Bridge.ref_head`). No rewrite was applied by the idealization, so `preserves` holds trivially.
-/
import proofs.«119075_j1752346657369_1_alg».proof.Defs
import proofs.«119075_j1752346657369_1_alg».proof.Proof.Gen.Kernel
import proofs.«119075_j1752346657369_1_alg».proof.Proof.Gen.Kernel.Frame
import proofs.«119075_j1752346657369_1_alg».proof.Proof.Gen.KernelIdeal
import proofs.«119075_j1752346657369_1_alg».proof.Proof.Gen.KernelIdeal.Frame
import proofs.«119075_j1752346657369_1_alg».proof.Proof.Gen.ReferenceIdeal
import proofs.«119075_j1752346657369_1_alg».proof.Proof.Gen.Pre_finite_inputs
import proofs.«119075_j1752346657369_1_alg».proof.Proof.RunNamed
import proofs.«119075_j1752346657369_1_alg».proof.Proof.KernelHost
import proofs.«119075_j1752346657369_1_alg».proof.Proof.RefTail
import proofs.«119075_j1752346657369_1_alg».proof.Proof.Mid
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with `head (mid (xw state W) edges) state bias W1 b1 W2 b2 W3 b3` of arguments that agree. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v51),
    Cert.KernelIdeal.RunNamed.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  show _ = Cert.KernelIdeal.Gen.W7 (F := Ideal) m ρ c (Proc.devRef .tc Cert.KernelIdeal.main_v51)
  rw [Cert.ReferenceIdeal.ReadP.val_main_v65_eq, Cert.Bridge.ref_head, Cert.Bridge.val_main_v43_eq, Cert.Bridge.val_main_v30_eq,
    Cert.KernelIdeal.HostValue.kernel_value, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
